-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x3 : Shape := ⟨2, ![100000, 3]⟩
abbrev S100000 : Shape := ⟨1, ![100000]⟩
abbrev S1x256 : Shape := ⟨2, ![1, 256]⟩
abbrev S256 : Shape := ⟨1, ![256]⟩
abbrev S256x256 : Shape := ⟨2, ![256, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_v28 : IVec S_ 1) (main_v33 : IVec S100000 1) : IVec S_ 1 :=
  let main_c_12 : IVec S_ 1 := constantI S_ 1 1#1
  let main_v34 : IVec S_ 1 := (fun x v => Host.reduce IntOp.andi x v reducesTo_S100000_S_d0 h_S_) main_v33 main_c_12
  let main_v35 : IVec S_ 1 := andi main_v28 main_v34
  main_v35

def fn_part1 {F : FTy → Type} [FloatOps F] (main_arg2 : IVec S100000 32) (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S100000 32 := broadcastInDim S100000 ![] bcast_S_S100000 main_c_10
  let main_v30 : IVec S100000 1 := cmpi .sge main_arg2 main_v29
  let main_c_11 : IVec S_ 32 := constantI S_ 32 128#32
  let main_v31 : IVec S100000 32 := broadcastInDim S100000 ![] bcast_S_S100000 main_c_11
  let main_v32 : IVec S100000 1 := cmpi .slt main_arg2 main_v31
  let main_v33 : IVec S100000 1 := andi main_v30 main_v32
  fn_part2 (F := F) main_v28 main_v33

def fn {F : FTy → Type} [FloatOps F] (main_arg0 : FVec F S100000x256 .f32) (main_arg1 : FVec F S100000x3 .f32) (main_arg2 : IVec S100000 32) (main_arg3 : FVec F S1x256 .f32) (main_arg4 : FVec F S256 .f32) (main_arg5 : FVec F S256x256 .f32) (main_arg6 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_v13 main_v16
-- ==== Kernel.lean ====
abbrev S100000x256 : Shape := ⟨2, ![100000, 256]⟩
abbrev S100000x3 : Shape := ⟨2, ![100000, 3]⟩
abbrev S100000 : Shape := ⟨1, ![100000]⟩
abbrev S1x256 : Shape := ⟨2, ![1, 256]⟩
abbrev S256 : Shape := ⟨1, ![256]⟩
abbrev S256x256 : Shape := ⟨2, ![256, 256]⟩
abbrev S100000x1 : Shape := ⟨2, ![100000, 1]⟩
abbrev S_ : Shape := ⟨0, ![]⟩
abbrev S100000x4 : Shape := ⟨2, ![100000, 4]⟩
abbrev S128x4 : Shape := ⟨2, ![128, 4]⟩
abbrev S2000x4 : Shape := ⟨2, ![2000, 4]⟩
abbrev S2000x1 : Shape := ⟨2, ![2000, 1]⟩
abbrev S2000x128 : Shape := ⟨2, ![2000, 128]⟩
abbrev S128x3 : Shape := ⟨2, ![128, 3]⟩
abbrev S128x1 : Shape := ⟨2, ![128, 1]⟩
abbrev S2000x3 : Shape := ⟨2, ![2000, 3]⟩
abbrev S2000x256 : Shape := ⟨2, ![2000, 256]⟩
abbrev S2000 : Shape := ⟨1, ![2000]⟩

abbrev nBuf : Space → Nat
  | .hbm => 31
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S100000x3, .f32⟩
  | .hbm, ⟨2, _⟩ => ⟨S100000, .i32⟩
  | .hbm, ⟨3, _⟩ => ⟨S1x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S100000x1, .i32⟩
  | .hbm, ⟨8, _⟩ => ⟨S_, .f32⟩
  | .hbm, ⟨9, _⟩ => ⟨S100000x1, .f32⟩
  | .hbm, ⟨10, _⟩ => ⟨S100000x4, .f32⟩
  | .hbm, ⟨11, _⟩ => ⟨S128x4, .f32⟩
  | .hbm, ⟨12, _⟩ => ⟨S128x3, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .i1⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x3, .f32⟩
  | .hbm, ⟨21, _⟩ => ⟨S128x3, .f32⟩
  | .hbm, ⟨22, _⟩ => ⟨S_, .f32⟩
  | .hbm, ⟨23, _⟩ => ⟨S_, .f32⟩
  | .hbm, ⟨24, _⟩ => ⟨S128x3, .i1⟩
  | .hbm, ⟨25, _⟩ => ⟨S128x3, .f32⟩
  | .hbm, ⟨26, _⟩ => ⟨S128x3, .f32⟩
  | .hbm, ⟨27, _⟩ => ⟨S1x256, .f32⟩
  | .hbm, ⟨28, _⟩ => ⟨S1x256, .f32⟩
  | .hbm, ⟨29, _⟩ => ⟨S256x256, .bf16⟩
  | .hbm, ⟨30, _⟩ => ⟨S100000x256, .f32⟩
  | .local _ .vmem, ⟨0, _⟩ => ⟨S2000x4, .f32⟩
  | .local _ .vmem, ⟨1, _⟩ => ⟨S2000x4, .f32⟩
  | .local _ .vmem, ⟨2, _⟩ => ⟨S2000x1, .i32⟩
  | .local _ .vmem, ⟨3, _⟩ => ⟨S2000x1, .i32⟩
  | .local _ .vmem, ⟨4, _⟩ => ⟨S128x4, .f32⟩
  | .local _ .vmem, ⟨5, _⟩ => ⟨S2000x3, .f32⟩
  | .local _ .vmem, ⟨6, _⟩ => ⟨S2000x3, .f32⟩
  | .local _ .vmem, ⟨7, _⟩ => ⟨S2000x1, .i32⟩
  | .local _ .vmem, ⟨8, _⟩ => ⟨S2000x1, .i32⟩
  | .local _ .vmem, ⟨9, _⟩ => ⟨S128x3, .f32⟩
  | .local _ .vmem, ⟨10, _⟩ => ⟨S1x256, .f32⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S100000_S100000x1 : S100000.ShapeCasts S100000x1
  bcast_S_S100000x1 : S_.BroadcastsInDim S100000x1 (![] : Fin 0 → Fin S100000x1.rank)
  concatenates_S100000x3_S100000x1_S100000x4_d1 : Shape.Concatenates [S100000x3, S100000x1] S100000x4 1
  inb_S128x4_S128x4_0_0 : ∀ a, (![0, 0] : Fin 2 → Nat) a + S128x4.size a ≤ S128x4.size a
  h_S128x4 : 0 < S128x4.numel
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  shapeCasts_S128x4_S128x4 : S128x4.ShapeCasts S128x4
  slices_S128x4_S128x3_0_0 : S128x4.Slices ![0, 0] S128x3
  slices_S128x4_S128x1_0_3 : S128x4.Slices ![0, 3] S128x1
  bcast_S_S128x1 : S_.BroadcastsInDim S128x1 (![] : Fin 0 → Fin S128x1.rank)
  bcast_S128x1_S128x3_0_1 : S128x1.BroadcastsInDim S128x3 (![0, 1] : Fin 2 → Fin S128x3.rank)
  bcast_S_S128x3 : S_.BroadcastsInDim S128x3 (![] : Fin 0 → Fin S128x3.rank)
  shapeCasts_S256_S1x256 : S256.ShapeCasts S1x256
  bitsLt_bf16_f32 : FTy.bits .bf16 < FTy.bits .f32
  inb_S2000x3_S2000x3_0_0 : ∀ a, (![0, 0] : Fin 2 → Nat) a + S2000x3.size a ≤ S2000x3.size a
  h_S2000x3 : 0 < S2000x3.numel
  inb_S128x3_S128x3_0_0 : ∀ a, (![0, 0] : Fin 2 → Nat) a + S128x3.size a ≤ S128x3.size a
  h_S128x3 : 0 < S128x3.numel
  shapeCasts_S128x3_S128x3 : S128x3.ShapeCasts S128x3
  reduces_S2000x3_S2000 : S2000x3.Reduces [1] S2000
  shapeCasts_S2000_S2000x1 : S2000.ShapeCasts S2000x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2000x1_S2000x256 : S2000x1.Broadcasts S2000x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  dot_S2000x128_S2000x4_S128x4_0_0_1_1_n_n_wf : DotDims.WF S2000x128 S2000x4 S128x4 [0] [0] [1] [1] [] []
  dot_S2000x128_S128x3_S2000x3_1_0_0_1_n_n_wf : DotDims.WF S2000x128 S128x3 S2000x3 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S100000x4.size a
  hwx0_0 : ∀ i : grid0.Coords, EltTy.bits .f32 = 32 ∨ (Rect.block (s := S100000x4) S2000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .i32 = 32 ∨ (Rect.block (s := S100000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4.size a ≤ S128x4.size a
  hwx0_2 : ∀ i : grid0.Coords, EltTy.bits .f32 = 32 ∨ (Rect.block (s := S128x4) S128x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x3.size a ≤ S100000x3.size a
  hwx1_0 : ∀ i : grid1.Coords, EltTy.bits .f32 = 32 ∨ (Rect.block (s := S100000x3) S2000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .i32 = 32 ∨ (Rect.block (s := S100000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x3.size a ≤ S128x3.size a
  hwx1_2 : ∀ i : grid1.Coords, EltTy.bits .f32 = 32 ∨ (Rect.block (s := S128x3) S128x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S100000x256.size a
  hwx1_7 : ∀ i : grid1.Coords, EltTy.bits .f32 = 32 ∨ (Rect.block (s := S100000x256) S2000x256.size (cc1_transform_7 i) (hinb1_7 i)).WholeWords (EltTy.packing .f32)

variable [Facts₀]

def dot_S2000x128_S2000x4_S128x4_0_0_1_1_n_n : DotDims S2000x128 S2000x4 S128x4 where
  lhsContracting := [0]
  rhsContracting := [0]
  lhsNonContracting := [1]
  rhsNonContracting := [1]
  lhsBatch := []
  rhsBatch := []
  wf := dot_S2000x128_S2000x4_S128x4_0_0_1_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v2) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x4.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x256 : Shape := ⟨2, ![100000, 256]⟩
abbrev S100000x3 : Shape := ⟨2, ![100000, 3]⟩
abbrev S100000 : Shape := ⟨1, ![100000]⟩
abbrev S1x256 : Shape := ⟨2, ![1, 256]⟩
abbrev S256 : Shape := ⟨1, ![256]⟩
abbrev S256x256 : Shape := ⟨2, ![256, 256]⟩
abbrev S_ : Shape := ⟨0, ![]⟩
abbrev S128x3 : Shape := ⟨2, ![128, 3]⟩
abbrev S100000x1 : Shape := ⟨2, ![100000, 1]⟩
abbrev S128x1 : Shape := ⟨2, ![128, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x3, .f32⟩
  | .hbm, ⟨2, _⟩ => ⟨S100000, .i32⟩
  | .hbm, ⟨3, _⟩ => ⟨S1x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S128x3, .f32⟩
  | .hbm, ⟨9, _⟩ => ⟨S100000x1, .i32⟩
  | .hbm, ⟨10, _⟩ => ⟨S128x3, .f32⟩
  | .hbm, ⟨11, _⟩ => ⟨S_, .f32⟩
  | .hbm, ⟨12, _⟩ => ⟨S100000x1, .f32⟩
  | .hbm, ⟨13, _⟩ => ⟨S_, .f32⟩
  | .hbm, ⟨14, _⟩ => ⟨S128x1, .f32⟩
  | .hbm, ⟨15, _⟩ => ⟨S100000x1, .i32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .i1⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x3, .f32⟩
  | .hbm, ⟨24, _⟩ => ⟨S128x3, .f32⟩
  | .hbm, ⟨25, _⟩ => ⟨S_, .f32⟩
  | .hbm, ⟨26, _⟩ => ⟨S_, .f32⟩
  | .hbm, ⟨27, _⟩ => ⟨S128x3, .i1⟩
  | .hbm, ⟨28, _⟩ => ⟨S128x3, .f32⟩
  | .hbm, ⟨29, _⟩ => ⟨S128x3, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x3, .f32⟩
  | .hbm, ⟨39, _⟩ => ⟨S100000x3, .f32⟩
  | .hbm, ⟨40, _⟩ => ⟨S100000x3, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x256, .f32⟩
  | .hbm, ⟨49, _⟩ => ⟨S1x256, .f32⟩
  | .hbm, ⟨50, _⟩ => ⟨S100000x256, .f32⟩
  | .hbm, ⟨51, _⟩ => ⟨S100000x256, .f32⟩
  | .hbm, ⟨52, _⟩ => ⟨S100000x256, .f32⟩
  | .hbm, ⟨53, _⟩ => ⟨S100000x256, .f32⟩
  | .hbm, ⟨54, _⟩ => ⟨S_, .f32⟩
  | .hbm, ⟨55, _⟩ => ⟨S100000x256, .f32⟩
  | .hbm, ⟨56, _⟩ => ⟨S100000x256, .f32⟩
  | .hbm, ⟨57, _⟩ => ⟨S_, .f32⟩
  | .hbm, ⟨58, _⟩ => ⟨S100000x256, .f32⟩
  | .hbm, ⟨59, _⟩ => ⟨S100000x256, .f32⟩
  | .hbm, ⟨60, _⟩ => ⟨S100000x256, .f32⟩
  | .hbm, ⟨61, _⟩ => ⟨S100000x256, .f32⟩
  | .hbm, ⟨62, _⟩ => ⟨S1x256, .f32⟩
  | .hbm, ⟨63, _⟩ => ⟨S100000x256, .f32⟩
  | .hbm, ⟨64, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call1_v0 : Ref sig .tc := ⟨.hbm, 40, rfl⟩
abbrev main_call1_cst : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_cst_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩

abbrev nD : Nat := 1
abbrev τ : Topo := Topo.v7x

variable {F : FTy → Type} [FloatOps F]

class Facts₀ : Prop where
  bcast_S_S128x3 : S_.BroadcastsInDim S128x3 (![] : Fin 0 → Fin S128x3.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S128x1 : S_.BroadcastsInDim S128x1 (![] : Fin 0 → Fin S128x1.rank)
  bcast_S128x1_S128x3_0_1 : S128x1.BroadcastsInDim S128x3 (![0, 1] : Fin 2 → Fin S128x3.rank)
  bcast_S_S100000 : S_.BroadcastsInDim S100000 (![] : Fin 0 → Fin S100000.rank)
  reducesTo_S100000x3_S100000_d1 : S100000x3.ReducesTo [1] S100000
  h_S_ : 0 < S_.numel
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  scatter_S128x3_S100000x1_S100000x3_1_0_0_1_wf : ScatterDims.WF S128x3 S100000x1 S100000x3 [1] [0] [0] 1
  scatter_S128x1_S100000x1_S100000x1_1_0_0_1_wf : ScatterDims.WF S128x1 S100000x1 S100000x1 [1] [0] [0] 1
  gather_S128x3_S100000x1_S100000x3_1_0_n_n_0_1_13_wf : GatherDims.WF S128x3 S100000x1 S100000x3 [1] [0] [] [0] [] 1 ![1, 3]
  dot_S100000x1_S1x256_S100000x256_1_0_0_1_n_n_wf : DotDims.WF S100000x1 S1x256 S100000x256 [1] [0] [0] [1] [] []
  dot_S100000x256_S256x256_S100000x256_1_0_0_1_n_n_wf : DotDims.WF S100000x256 S256x256 S100000x256 [1] [0] [0] [1] [] []

variable [Facts₀]

def scatter_S128x3_S100000x1_S100000x3_1_0_0_1 : ScatterDims S128x3 S100000x1 S100000x3 where
  updateWindowDims := [1]
  insertedWindowDims := [0]
  scatterDimsToOperandDims := [0]
  indexVectorDim := 1
  wf := scatter_S128x3_S100000x1_S100000x3_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf
def gather_S128x3_S100000x1_S100000x3_1_0_n_n_0_1_13 : GatherDims S128x3 S100000x1 S100000x3 where
  offsetDims := [1]
  collapsedSliceDims := [0]
  operandBatchingDims := []
  startIndicesBatchingDims := []
  startIndexMap := [0]
  indexVectorDim := 1
  sliceSizes := ![1, 3]
  wf := gather_S128x3_S100000x1_S100000x3_1_0_n_n_0_1_13_wf
def dot_S100000x1_S1x256_S100000x256_1_0_0_1_n_n : DotDims S100000x1 S1x256 S100000x256 where
  lhsContracting := [1]
  rhsContracting := [0]
  lhsNonContracting := [0]
  rhsNonContracting := [1]
  lhsBatch := []
  rhsBatch := []
  wf := dot_S100000x1_S1x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.Spec.lean ====
/-
  The function both programs compute, index by index, over the extended reals.

  A node n carries a position pos[n, ·] in three coordinates and a graph label batch[n], a 32-bit word.
  `hot b g` is the weight 1 when the word b is the number g and 0 otherwise.  For a graph g < 128,
    sums[g, d]  = Σ_n hot(batch n, g) · pos[n, d]           (the positions of the graph's nodes, added up)
    cnts[g]     = Σ_n hot(batch n, g) · 1                   (how many nodes the graph has)
    ctr         = centerOf sums cnts                          (sums / max(cnts, 1) where cnts > 0, else 0)
  and for a node n and an output column j < 256,
    c[n, d]     = Σ_g hot(batch n, g) · ctr[g, d]           (the centre of n's graph, picked by the weights)
    s[n]        = max (sqrt (Σ_d (pos[n,d] − c[n,d])²)) ε
    h[n, k]     = silu (s[n] · W1[0,k] + b1[k]),   silu x = x · logistic x
    out[n, j]   = Σ_k h[n,k] · W2[k,j] + b2[j].
  The laws used are only 0 · x = 0, 1 · x = x and the commutative monoid of sums: none needs a finite input.
-/
import Idealize.ShloMosaic.PureOps
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## Shapes (literal, so that they meet each program's own abbreviations by unfolding) -/

abbrev SN : Shape := ⟨1, ![100000]⟩
abbrev SN1 : Shape := ⟨2, ![100000, 1]⟩
abbrev SN3 : Shape := ⟨2, ![100000, 3]⟩
abbrev SN4 : Shape := ⟨2, ![100000, 4]⟩
abbrev SG1 : Shape := ⟨2, ![128, 1]⟩
abbrev SG3 : Shape := ⟨2, ![128, 3]⟩
abbrev SG4 : Shape := ⟨2, ![128, 4]⟩
abbrev SH : Shape := ⟨1, ![256]⟩
abbrev S1H : Shape := ⟨2, ![1, 256]⟩
abbrev SHH : Shape := ⟨2, ![256, 256]⟩
abbrev SNH : Shape := ⟨2, ![100000, 256]⟩
abbrev S0 : Shape := ⟨0, ![]⟩

/-- The float word of 1.0, kept as a word: both programs carry it and it is never evaluated. -/
abbrev one32 : EReal := Ideal.ofBits .f32 0x3F800000#32
/-- The float word of the guard ε = f32(1e-8), likewise. -/
abbrev eps32 : EReal := Ideal.ofBits .f32 0x322BCC77#32

/-- The one-hot weight: 1 when the label word is the graph number, else 0. -/
def hot (b : BitVec 32) (g : Fin 128) : EReal := if b = BitVec.ofNat 32 g.val then 1 else 0

/-- A vector of length N seen as a column [N, 1]. -/
def col {α : Type} (x : SN.Idx → α) : SN1.Idx → α := fun i => x (ix1 (i 0))
/-- A vector of length 256 seen as a row [1, 256]. -/
def row {α : Type} (x : SH.Idx → α) : S1H.Idx → α := fun i => x (ix1 (i 1))

/-- The one-hot product of R rows of labels with R rows of a four-column array: entry (g, e) adds x[n, e] over the rows n
    labelled g.  R = 2000 is one tile's contribution, R = 100000 the whole sum. -/
def accArr (R : Nat) (b : (⟨2, ![R, 1]⟩ : Shape).Idx → BitVec 32) (x : (⟨2, ![R, 4]⟩ : Shape).Idx → EReal) : SG4.Idx → EReal :=
  fun i => ∑ n : Fin R, hot (b (ix2 n (0 : Fin 1))) (i 0) * x (ix2 n (i 1))

/-- Per graph and coordinate, the sum of the positions of the graph's nodes. -/
def sums (batch : SN.Idx → BitVec 32) (pos : SN3.Idx → EReal) : SG3.Idx → EReal :=
  fun i => ∑ n : Fin 100000, hot (batch (ix1 n)) (i 0) * pos (ix2 n (i 1))

/-- Per graph, the number of its nodes (a sum of the word 1.0). -/
def cnts (batch : SN.Idx → BitVec 32) : SG1.Idx → EReal :=
  fun i => ∑ n : Fin 100000, hot (batch (ix1 n)) (i 0) * one32

theorem hb_G1_G3 : SG1.BroadcastsInDim SG3 (![0, 1] : Fin 2 → Fin SG3.rank) := by decide
theorem hb_0_G1 : S0.BroadcastsInDim SG1 (![] : Fin 0 → Fin SG1.rank) := by decide
theorem hb_0_G3 : S0.BroadcastsInDim SG3 (![] : Fin 0 → Fin SG3.rank) := by decide

/-- The centre of each graph from its sums and its count: the SAME host operations in both programs
    (sums / max(count, 1) where count > 0, else 0), carried as one function and never opened. -/
def centerOf (s : FVec Ideal SG3 .f32) (n : FVec Ideal SG1 .f32) : FVec Ideal SG3 .f32 :=
  select (broadcastInDim SG3 ![0, 1] hb_G1_G3 (cmpf (F := Ideal) .ogt n (broadcastInDim SG1 ![] hb_0_G1 (constant (F := Ideal) S0 .f32 0x00000000#32))))
    (Host.divf s (broadcastInDim SG3 ![0, 1] hb_G1_G3 (maximumf n (broadcastInDim SG1 ![] hb_0_G1 (constant (F := Ideal) S0 .f32 0x3F800000#32)))))
    (broadcastInDim SG3 ![] hb_0_G3 (id (constant (F := Ideal) S0 .f32 0x00000000#32)))

/-- The centre of the graph a label names, picked by the one-hot weights. -/
def gath (ctr : SG3.Idx → EReal) (b : BitVec 32) (d : Fin 3) : EReal := ∑ g : Fin 128, hot b g * ctr (ix2 g d)

/-- The guarded distance of row n from its graph's centre (R rows: a tile's 2000 or all 100000). -/
def scal (R : Nat) (pos : (⟨2, ![R, 3]⟩ : Shape).Idx → EReal) (b : (⟨2, ![R, 1]⟩ : Shape).Idx → BitVec 32) (ctr : SG3.Idx → EReal) (n : Fin R) : EReal :=
  max (Ideal.sqrt (∑ d : Fin 3, (pos (ix2 n d) - gath ctr (b (ix2 n (0 : Fin 1))) d) * (pos (ix2 n d) - gath ctr (b (ix2 n (0 : Fin 1))) d))) eps32

/-- The hidden layer before and after its activation. -/
def hpre (R : Nat) (pos : (⟨2, ![R, 3]⟩ : Shape).Idx → EReal) (b : (⟨2, ![R, 1]⟩ : Shape).Idx → BitVec 32) (ctr : SG3.Idx → EReal) (w1 b1 : S1H.Idx → EReal) (n : Fin R) (k : Fin 256) : EReal :=
  scal R pos b ctr n * w1 (ix2 (0 : Fin 1) k) + b1 (ix2 (0 : Fin 1) k)
def hid (R : Nat) (pos : (⟨2, ![R, 3]⟩ : Shape).Idx → EReal) (b : (⟨2, ![R, 1]⟩ : Shape).Idx → BitVec 32) (ctr : SG3.Idx → EReal) (w1 b1 : S1H.Idx → EReal) (n : Fin R) (k : Fin 256) : EReal :=
  hpre R pos b ctr w1 b1 n k * Ideal.logistic (hpre R pos b ctr w1 b1 n k)

/-- The output of the second linear layer on R rows, from the arrays as the second region finds them: row n of the
    result depends on row n of the positions and of the labels only. -/
def mlpOut (R : Nat) (pos : (⟨2, ![R, 3]⟩ : Shape).Idx → EReal) (b : (⟨2, ![R, 1]⟩ : Shape).Idx → BitVec 32) (ctr : SG3.Idx → EReal) (w1 b1 : S1H.Idx → EReal) (w2 : SHH.Idx → EReal) (b2 : S1H.Idx → EReal) :
    (⟨2, ![R, 256]⟩ : Shape).Idx → EReal :=
  fun i => (∑ k : Fin 256, hid R pos b ctr w1 b1 (i 0) k * w2 (ix2 k (i 1))) + b2 (ix2 (0 : Fin 1) (i 1))

/-- The whole result as a function of the six arrays that are read. -/
def result (pos : SN3.Idx → EReal) (batch : SN.Idx → BitVec 32) (w1 : S1H.Idx → EReal) (b1 : SH.Idx → EReal) (w2 : SHH.Idx → EReal) (b2 : SH.Idx → EReal) :
    SNH.Idx → EReal :=
  mlpOut 100000 pos (col batch) (centerOf (sums batch pos) (cnts batch)) w1 (row b1) w2 (row b2)

/-- The positions with a fourth column of the word 1.0: what the first region's row window reads. -/
def posAug (pos : SN3.Idx → EReal) : SN4.Idx → EReal :=
  fun i => if h : (i 1).val < 3 then pos (ix2 (i 0) ⟨(i 1).val, h⟩) else one32

theorem hs_G4_G3 : SG4.Slices ![0, 0] SG3 := by decide
theorem hs_G4_G1 : SG4.Slices ![0, 3] SG1 := by decide

/-- A slice read at an index is the array at the index moved by the offsets, coordinate by coordinate. -/
theorem slice_at {s t : Shape} {α : Type} {off : Fin s.rank → Nat} (x : s.Idx → α) (h : s.Slices off t) (j : t.Idx) (k : s.Idx)
    (hk : ∀ a : Fin s.rank, (k a).val = off a + (j (a.cast h.1.symm)).val) : extractStridedSlice t off x h j = x k := by
  unfold extractStridedSlice
  exact congrArg x (funext fun a => Fin.ext (hk a).symm)

/-- In its first three columns the augmented array is the positions. -/
theorem posAug_lt (pos : SN3.Idx → EReal) (n : Fin 100000) (d : Fin 3) (hd : d.val < 4) :
    posAug pos (ix2 n (⟨d.val, hd⟩ : Fin 4)) = pos (ix2 n d) := by
  unfold posAug
  rw [dif_pos (show ((ix2 n (⟨d.val, hd⟩ : Fin 4)) 1).val < 3 from d.isLt)]

/-- Its fourth column is the word 1.0. -/
theorem posAug_three (pos : SN3.Idx → EReal) (n : Fin 100000) : posAug pos (ix2 n (3 : Fin 4)) = one32 := by
  unfold posAug
  rw [dif_neg (show ¬ ((ix2 n (3 : Fin 4)) 1).val < 3 from Nat.lt_irrefl 3)]

/-- The first three columns of the accumulated array are the sums of the positions. -/
theorem slice_sums (batch : SN.Idx → BitVec 32) (pos : SN3.Idx → EReal) :
    extractStridedSlice SG3 ![0, 0] (accArr 100000 (col batch) (posAug pos)) hs_G4_G3 = sums batch pos := by
  funext i
  obtain ⟨g, d, rfl⟩ : ∃ (g : Fin 128) (d : Fin 3), i = ix2 g d := ⟨i 0, i 1, eq_ix2 i⟩
  have hd : d.val < 4 := by have := d.isLt; omega
  rw [slice_at _ hs_G4_G3 (ix2 g d) (ix2 g (⟨d.val, hd⟩ : Fin 4)) (by
    intro a
    match a with
    | ⟨0, _⟩ => show g.val = 0 + g.val; omega
    | ⟨1, _⟩ => show d.val = 0 + d.val; omega)]
  unfold accArr sums
  refine Finset.sum_congr rfl fun n _ => ?_
  show hot (batch (ix1 n)) g * posAug pos (ix2 n (⟨d.val, hd⟩ : Fin 4)) = hot (batch (ix1 n)) g * pos (ix2 n d)
  rw [posAug_lt pos n d hd]

/-- Its fourth column is the counts. -/
theorem slice_cnts (batch : SN.Idx → BitVec 32) (pos : SN3.Idx → EReal) :
    extractStridedSlice SG1 ![0, 3] (accArr 100000 (col batch) (posAug pos)) hs_G4_G1 = cnts batch := by
  funext i
  obtain ⟨g, e, rfl⟩ : ∃ (g : Fin 128) (e : Fin 1), i = ix2 g e := ⟨i 0, i 1, eq_ix2 i⟩
  rw [slice_at _ hs_G4_G1 (ix2 g e) (ix2 g (3 : Fin 4)) (by
    intro a
    match a with
    | ⟨0, _⟩ => show g.val = 0 + g.val; omega
    | ⟨1, _⟩ => show 3 = 3 + e.val; have := e.isLt; omega)]
  unfold accArr cnts
  refine Finset.sum_congr rfl fun n _ => ?_
  show hot (batch (ix1 n)) g * posAug pos (ix2 n (3 : Fin 4)) = hot (batch (ix1 n)) g * one32
  rw [posAug_three pos n]

/-! ## Sums against one-hot weights -/

theorem hot_self (b : BitVec 32) (hb : b.toNat < 128) : hot b ⟨b.toNat, hb⟩ = 1 := by
  unfold hot; rw [if_pos]; simp

theorem hot_ne (b : BitVec 32) (g : Fin 128) (h : b.toNat ≠ g.val) : hot b g = 0 := by
  unfold hot; rw [if_neg]; intro e; apply h; rw [e]; simp [BitVec.toNat_ofNat]; omega

/-- Against the one-hot weights of an in-range label a sum over the graphs keeps the one term the label names. -/
theorem sum_hot_single (b : BitVec 32) (hb : b.toNat < 128) (c : Fin 128 → EReal) :
    ∑ g : Fin 128, hot b g * c g = c ⟨b.toNat, hb⟩ := by
  rw [Finset.sum_eq_single (⟨b.toNat, hb⟩ : Fin 128)]
  · rw [hot_self, one_mul]
  · intro g _ hg
    rw [hot_ne b g (fun e => hg (Fin.ext e.symm)), zero_mul]
  · intro h
    exact absurd (Finset.mem_univ _) h

/-- A sum against one-hot weights is the sum over the nodes carrying the label. -/
theorem sum_hot_filter (lab : Fin 100000 → BitVec 32) (g : Fin 128) (x : Fin 100000 → EReal) :
    ∑ n : Fin 100000, hot (lab n) g * x n = ∑ n ∈ Finset.univ.filter (fun n => lab n = BitVec.ofNat 32 g.val), x n := by
  rw [Finset.sum_filter]
  refine Finset.sum_congr rfl fun n _ => ?_
  unfold hot
  by_cases h : lab n = BitVec.ofNat 32 g.val
  · rw [if_pos h, if_pos h, one_mul]
  · rw [if_neg h, if_neg h, zero_mul]

/-- The nodes in fifty tiles of two thousand. -/
theorem sum_tiles (f : Fin 100000 → EReal) :
    ∑ n : Fin 100000, f n = ∑ t : Fin 50, ∑ r : Fin 2000, f ⟨t.val * 2000 + r.val, by omega⟩ := by
  rw [← Equiv.sum_comp (finProdFinEquiv (m := 50) (n := 2000)) f, Fintype.sum_prod_type]
  refine Finset.sum_congr rfl fun t _ => Finset.sum_congr rfl fun r _ => ?_
  refine congrArg f (Fin.ext ?_)
  show r.val + 2000 * t.val = t.val * 2000 + r.val
  omega

end Cert.Spec

end
-- ==== Proof.Region1Pay.lean ====
/-
  What one grid point of the second region stores, as a function of the blocks it loads: the second layer's output on
  the tile's 2000 rows.  The one-hot matrix times the centre table picks each row's centre; the lane sum of three squares,
  its root and the guard give the row's scalar; the rest is the two linear layers around the activation, the second as
  a product contracting the 256 hidden columns (a change of float format is the identity on the extended reals).

  Every operation is read at explicit coordinates (r, j): a row broadcast reads row 0, a column broadcast column 0, the
  added unit axis reads the vector at r, each product is the sum over its one contracted coordinate, and the converted
  comparison of a label with a lane number is the one-hot weight.  With these the stored value at (r, j) and the
  specification's value at (r, j) are the same expression.
-/
import proofs.«412035_j24927990186018_1_alg».proof.Proof.Gen.KernelIdeal.Skeleton
import proofs.«412035_j24927990186018_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.Region1Pay

open Cert.KernelIdeal Cert.KernelIdeal.Gen Idealize.ShloMosaic Idealize.ShloMosaic.ValueIdx

/-! ## Layout operations at explicit coordinates -/

theorem bcast_row_apply {α : Type} (x : S1x256.Idx → α) (r : Fin 2000) (j : Fin 256) :
    broadcastTo S2000x256 x broadcasts_S1x256_S2000x256 (ix2 r j) = x (ix2 (0 : Fin 1) j) :=
  broadcastTo_apply x broadcasts_S1x256_S2000x256 (ix2 r j) (ix2 (0 : Fin 1) j) (fun a => match a with
    | ⟨0, _⟩ => by show 0 = if (1 : Nat) = 1 then 0 else r.val; rw [if_pos rfl]
    | ⟨1, _⟩ => by show j.val = if (256 : Nat) = 1 then 0 else j.val; rw [if_neg (by decide)])

theorem bcast_col_apply {α : Type} (x : S2000x1.Idx → α) (r : Fin 2000) (j : Fin 256) :
    broadcastTo S2000x256 x broadcasts_S2000x1_S2000x256 (ix2 r j) = x (ix2 r (0 : Fin 1)) :=
  broadcastTo_apply x broadcasts_S2000x1_S2000x256 (ix2 r j) (ix2 r (0 : Fin 1)) (fun a => match a with
    | ⟨0, _⟩ => by show r.val = if (2000 : Nat) = 1 then 0 else r.val; rw [if_neg (by decide)]
    | ⟨1, _⟩ => by show 0 = if (1 : Nat) = 1 then 0 else j.val; rw [if_pos rfl])

theorem bcast_col128_apply {α : Type} (x : S2000x1.Idx → α) (r : Fin 2000) (g : Fin 128) :
    broadcastTo S2000x128 x broadcasts_S2000x1_S2000x128 (ix2 r g) = x (ix2 r (0 : Fin 1)) :=
  broadcastTo_apply x broadcasts_S2000x1_S2000x128 (ix2 r g) (ix2 r (0 : Fin 1)) (fun a => match a with
    | ⟨0, _⟩ => by show r.val = if (2000 : Nat) = 1 then 0 else r.val; rw [if_neg (by decide)]
    | ⟨1, _⟩ => by show 0 = if (1 : Nat) = 1 then 0 else g.val; rw [if_pos rfl])

theorem addUnit_apply {α : Type} (x : S2000.Idx → α) (r : Fin 2000) :
    shapeCast S2000x1 x shapeCasts_S2000_S2000x1 (ix2 r (0 : Fin 1)) = x (ix1 r) :=
  shapeCast_apply x shapeCasts_S2000_S2000x1 (ix2 r (0 : Fin 1)) (ix1 r) (by
    rw [Shape.rowMajor_val_one, Shape.rowMajor_val_two]
    show r.val = r.val * 1 + 0
    omega)

/-! ## The second product: contraction over the 256 hidden columns -/

theorem lhs_hid_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_hid_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_hid_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_hid_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The second product at (r, j): the sum over the hidden column k of x[r, k] · w[k, j]. -/
theorem matmul_hid_apply (x : FVec Ideal S2000x256 .bf16) (w : FVec Ideal S256x256 .bf16) (r : Fin 2000) (j : Fin 256) :
    matmul dot_S2000x256_S256x256_S2000x256_1_0_0_1_n_n none x w (constant (F := Ideal) S2000x256 .f32 0x00000000#32) (ix2 r j)
      = ∑ k : Fin 256, x (ix2 r k) * w (ix2 k j) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r j) ((ValueIdx.contrEquiv1 dot_S2000x256_S256x256_S2000x256_1_0_0_1_n_n 256 rfl rfl).symm k) = ix2 r k := funext fun a => Fin.ext (by
    match a with
    | ⟨0, _⟩ => exact lhs_hid_0 _ _
    | ⟨1, _⟩ => exact (lhs_hid_1 _ _).trans hk)
  have er : dot_S2000x256_S256x256_S2000x256_1_0_0_1_n_n.rhsIdx (ix2 r j) ((ValueIdx.contrEquiv1 dot_S2000x256_S256x256_S2000x256_1_0_0_1_n_n 256 rfl rfl).symm k) = ix2 k j := funext fun a => Fin.ext (by
    match a with
    | ⟨0, _⟩ => exact (rhs_hid_0 _ _).trans hk
    | ⟨1, _⟩ => exact rhs_hid_1 _ _)
  rw [el, er]

/-! ## The first product: contraction over the 128 graphs -/

theorem lhs_pick_0 (i : S2000x3.Idx) (q : dot_S2000x128_S128x3_S2000x3_1_0_0_1_n_n.contr.Idx) :
    (dot_S2000x128_S128x3_S2000x3_1_0_0_1_n_n.lhsIdx i q 0).val = (i 0).val := by
  unfold DotDims.lhsIdx
  rw [dif_neg (show ¬(0 : Fin S2000x128.rank) ∈ dot_S2000x128_S128x3_S2000x3_1_0_0_1_n_n.lhsBatch by decide), dif_pos (show (0 : Fin S2000x128.rank) ∈ dot_S2000x128_S128x3_S2000x3_1_0_0_1_n_n.lhsNonContracting by decide)]
  rfl
theorem lhs_pick_1 (i : S2000x3.Idx) (q : dot_S2000x128_S128x3_S2000x3_1_0_0_1_n_n.contr.Idx) :
    (dot_S2000x128_S128x3_S2000x3_1_0_0_1_n_n.lhsIdx i q 1).val = (q ⟨0, by decide⟩).val :=
  dot_S2000x128_S128x3_S2000x3_1_0_0_1_n_n.lhsIdx_val_of_single rfl i q
theorem rhs_pick_0 (i : S2000x3.Idx) (q : dot_S2000x128_S128x3_S2000x3_1_0_0_1_n_n.contr.Idx) :
    (dot_S2000x128_S128x3_S2000x3_1_0_0_1_n_n.rhsIdx i q 0).val = (q ⟨0, by decide⟩).val :=
  dot_S2000x128_S128x3_S2000x3_1_0_0_1_n_n.rhsIdx_val_of_single rfl i q
theorem rhs_pick_1 (i : S2000x3.Idx) (q : dot_S2000x128_S128x3_S2000x3_1_0_0_1_n_n.contr.Idx) :
    (dot_S2000x128_S128x3_S2000x3_1_0_0_1_n_n.rhsIdx i q 1).val = (i 1).val := by
  unfold DotDims.rhsIdx
  rw [dif_neg (show ¬(1 : Fin S128x3.rank) ∈ dot_S2000x128_S128x3_S2000x3_1_0_0_1_n_n.rhsBatch by decide), dif_pos (show (1 : Fin S128x3.rank) ∈ dot_S2000x128_S128x3_S2000x3_1_0_0_1_n_n.rhsNonContracting by decide)]
  rfl

/-- The first product at (r, d): the sum over the graph g of x[r, g] · w[g, d]. -/
theorem matmul_pick_apply (x : FVec Ideal S2000x128 .f32) (w : FVec Ideal S128x3 .f32) (r : Fin 2000) (d : Fin 3) :
    matmul dot_S2000x128_S128x3_S2000x3_1_0_0_1_n_n (some .fp32) x w (constant (F := Ideal) S2000x3 .f32 0x00000000#32) (ix2 r d)
      = ∑ g : Fin 128, x (ix2 r g) * w (ix2 g d) := by
  simp only [matmul]
  rw [Ideal.matmul_constant_zero_apply, ← Equiv.sum_comp (ValueIdx.contrEquiv1 dot_S2000x128_S128x3_S2000x3_1_0_0_1_n_n 128 rfl rfl).symm]
  refine Finset.sum_congr rfl fun k _ => ?_
  have hk := ValueIdx.contrEquiv1_symm_val dot_S2000x128_S128x3_S2000x3_1_0_0_1_n_n 128 rfl rfl k
  have el : dot_S2000x128_S128x3_S2000x3_1_0_0_1_n_n.lhsIdx (ix2 r d) ((ValueIdx.contrEquiv1 dot_S2000x128_S128x3_S2000x3_1_0_0_1_n_n 128 rfl rfl).symm k) = ix2 r k := funext fun a => Fin.ext (by
    match a with
    | ⟨0, _⟩ => exact lhs_pick_0 _ _
    | ⟨1, _⟩ => exact (lhs_pick_1 _ _).trans hk)
  have er : dot_S2000x128_S128x3_S2000x3_1_0_0_1_n_n.rhsIdx (ix2 r d) ((ValueIdx.contrEquiv1 dot_S2000x128_S128x3_S2000x3_1_0_0_1_n_n 128 rfl rfl).symm k) = ix2 k d := funext fun a => Fin.ext (by
    match a with
    | ⟨0, _⟩ => exact (rhs_pick_0 _ _).trans hk
    | ⟨1, _⟩ => exact rhs_pick_1 _ _)
  rw [el, er]

/-! ## The one-hot factor and the lane sum -/

/-- The converted comparison of a label with a lane number is the one-hot weight. -/
theorem onehot_word (b : BitVec 32) (g : Fin 128) :
    FloatOps.sitofp (F := Ideal) .f32 ((IntOp.cmpi .eq b (BitVec.ofNat 32 g.val)).setWidth 32) = Cert.Spec.hot b g := by
  unfold Cert.Spec.hot
  by_cases h : b = BitVec.ofNat 32 g.val
  · rw [if_pos h, StableHlo.Predicate.cmpi_eq_iff.mpr h]
    show (((((1#1 : BitVec 1).setWidth 32).toInt : ℝ)) : EReal) = 1
    rw [show ((1#1 : BitVec 1).setWidth 32).toInt = 1 from by decide]
    simp
  · rw [if_neg h, eq_zero_of_ne_one (fun h1 => h (StableHlo.Predicate.cmpi_eq_iff.mp h1))]
    show (((((0#1 : BitVec 1).setWidth 32).toInt : ℝ)) : EReal) = 0
    rw [show ((0#1 : BitVec 1).setWidth 32).toInt = 0 from by decide]
    simp

/-- The sum over the three lanes of row r. -/
theorem lane_sum_apply (x : FVec Ideal S2000x3 .f32) (hφ : FTy.f32 = FTy.f32 ∨ FTy.f32 = FTy.bf16) (hacc : (0x00000000#32 : BitVec 32) = 0x00000000#32) (r : Fin 2000) :
    multiReduction (F := Ideal) .add [1] S2000 x 0x00000000#32 reduces_S2000x3_S2000 hφ hacc (ix1 r) = ∑ d : Fin 3, x (ix2 r d) := by
  refine (Ideal.multiReduction_add_single x 0x00000000#32 reduces_S2000x3_S2000 hφ hacc (ix1 r)).trans ?_
  refine Finset.sum_congr rfl fun d _ => congrArg x ?_
  funext a
  match a with
  | ⟨0, _⟩ => rfl
  | ⟨1, _⟩ => rfl

/-- The lane-number array: at every index its second coordinate, as a word. -/
theorem lane_number_eq : iota .tc S2000x128 32 [1] iota_S2000x128_d1_w32 = fun i => BitVec.ofNat 32 (i 1).val :=
  funext fun i => iota_single_apply .tc S2000x128 32 1 iota_S2000x128_d1_w32 i

/-! ## The elementwise functions at an index -/

theorem logistic_apply {s : Shape} {φ : FTy} (x : FVec Ideal s φ) (i : s.Idx) : logistic x i = Ideal.logistic (x i) := rfl
theorem sqrt_apply {s : Shape} {φ : FTy} (x : FVec Ideal s φ) (i : s.Idx) : sqrt x i = Ideal.sqrt (x i) := rfl
theorem cmpi_apply {s : Shape} {w : Nat} (p : CmpIPredicate) (x y : IVec s w) (i : s.Idx) : cmpi p x y i = IntOp.cmpi p (x i) (y i) := rfl

/-! ## The stored value -/

theorem pay1_eq (v0 : Vec Ideal S2000x3 .f32) (v1 : Vec Ideal S2000x1 .i32) (v3 : Vec Ideal S128x3 .f32) (v18 v19 : Vec Ideal S1x256 .f32)
    (v28 : Vec Ideal S256x256 .bf16) (v30 : Vec Ideal S1x256 .f32) :
    (k1_pay1 (F := Ideal) v0 v1 v3 v18 v19 v28 v30 : S2000x256.Idx → EReal) = Cert.Spec.mlpOut 2000 v0 v1 v3 v18 v19 v28 v30 := by
  funext i
  obtain ⟨r, j, rfl⟩ : ∃ (r : Fin 2000) (j : Fin 256), i = ix2 r j := ⟨i 0, i 1, eq_ix2 i⟩
  unfold k1_pay1 Cert.Spec.mlpOut Cert.Spec.hid Cert.Spec.hpre Cert.Spec.scal Cert.Spec.gath
  simp only [shapeCast_self, addf_apply, bcast_row_apply, matmul_hid_apply, truncf_apply, mulf_apply, logistic_apply,
    bcast_col_apply, maximumf_apply, broadcast_apply, sqrt_apply, addUnit_apply, Ideal.ofBits_def]
  rw [lane_sum_apply, lane_number_eq]
  simp only [mulf_apply, subf_apply, matmul_pick_apply, sitofp_apply, extui_apply, cmpi_apply, bcast_col128_apply, onehot_word]

end Cert.KernelIdeal.Region1Pay

end
-- ==== Proof.Region1.lean ====
/-
  The second region writes row tile t of the result from row tile t of the positions and of the labels and from the
  whole centre table and the weights: each grid point one block of 2000 rows, the fifty blocks tiling the array.
-/
import proofs.«412035_j24927990186018_1_alg».proof.Proof.Gen.KernelIdeal.Frame
import proofs.«412035_j24927990186018_1_alg».proof.Proof.Spec
import proofs.«412035_j24927990186018_1_alg».proof.Proof.Region1Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## A row of the second layer's output reads that row of the positions and of the labels only -/

/-- The guarded distance of a row is the same in two arrangements that agree on that row. -/
theorem scal_row (R R' : Nat) (pos : (⟨2, ![R, 3]⟩ : Shape).Idx → EReal) (b : (⟨2, ![R, 1]⟩ : Shape).Idx → BitVec 32)
    (pos' : (⟨2, ![R', 3]⟩ : Shape).Idx → EReal) (b' : (⟨2, ![R', 1]⟩ : Shape).Idx → BitVec 32) (ctr : Cert.Spec.SG3.Idx → EReal)
    (n : Fin R) (n' : Fin R') (hp : ∀ d : Fin 3, pos (ix2 n d) = pos' (ix2 n' d)) (hb : b (ix2 n (0 : Fin 1)) = b' (ix2 n' (0 : Fin 1))) :
    Cert.Spec.scal R pos b ctr n = Cert.Spec.scal R' pos' b' ctr n' := by
  unfold Cert.Spec.scal
  rw [hb]
  simp only [hp]

/-- So is the row of the output. -/
theorem mlpOut_row (R R' : Nat) (pos : (⟨2, ![R, 3]⟩ : Shape).Idx → EReal) (b : (⟨2, ![R, 1]⟩ : Shape).Idx → BitVec 32)
    (pos' : (⟨2, ![R', 3]⟩ : Shape).Idx → EReal) (b' : (⟨2, ![R', 1]⟩ : Shape).Idx → BitVec 32) (ctr : Cert.Spec.SG3.Idx → EReal)
    (w1 b1 : Cert.Spec.S1H.Idx → EReal) (w2 : Cert.Spec.SHH.Idx → EReal) (b2 : Cert.Spec.S1H.Idx → EReal)
    (n : Fin R) (n' : Fin R') (hp : ∀ d : Fin 3, pos (ix2 n d) = pos' (ix2 n' d)) (hb : b (ix2 n (0 : Fin 1)) = b' (ix2 n' (0 : Fin 1)))
    (q : Fin 256) :
    Cert.Spec.mlpOut R pos b ctr w1 b1 w2 b2 (ix2 n q) = Cert.Spec.mlpOut R' pos' b' ctr w1 b1 w2 b2 (ix2 n' q) := by
  have hh : ∀ k : Fin 256, Cert.Spec.hid R pos b ctr w1 b1 n k = Cert.Spec.hid R' pos' b' ctr w1 b1 n' k := fun k => by
    unfold Cert.Spec.hid Cert.Spec.hpre
    rw [scal_row R R' pos b pos' b' ctr n n' hp hb]
  show (∑ k : Fin 256, Cert.Spec.hid R pos b ctr w1 b1 n k * w2 (ix2 k q)) + b2 (ix2 (0 : Fin 1) q)
     = (∑ k : Fin 256, Cert.Spec.hid R' pos' b' ctr w1 b1 n' k * w2 (ix2 k q)) + b2 (ix2 (0 : Fin 1) q)
  simp only [hh]

/-! ## The blocks the point reads and the arrays they are cut from, each at its literal type -/

abbrev posBlk (c : Dev nD) (t : Fin cfg1.N) : Vec Ideal S2000x3 .f32 := iblk1 V c 0 t
abbrev labBlk (c : Dev nD) (t : Fin cfg1.N) : Vec Ideal S2000x1 .i32 := iblk1 V c 1 t
abbrev ctrBlk (c : Dev nD) (t : Fin cfg1.N) : Vec Ideal S128x3 .f32 := iblk1 V c 2 t
abbrev w1Blk (c : Dev nD) (t : Fin cfg1.N) : Vec Ideal S1x256 .f32 := iblk1 V c 3 t
abbrev b1Blk (c : Dev nD) (t : Fin cfg1.N) : Vec Ideal S1x256 .f32 := iblk1 V c 4 t
abbrev w2Blk (c : Dev nD) (t : Fin cfg1.N) : Vec Ideal S256x256 .bf16 := iblk1 V c 5 t
abbrev b2Blk (c : Dev nD) (t : Fin cfg1.N) : Vec Ideal S1x256 .f32 := iblk1 V c 6 t

abbrev posArr (c : Dev nD) : Vec Ideal S100000x3 .f32 := V c main_arg1
abbrev labArr (c : Dev nD) : Vec Ideal S100000x1 .i32 := V c main_v0
abbrev ctrArr (c : Dev nD) : Vec Ideal S128x3 .f32 := V c main_v12
abbrev w1Arr (c : Dev nD) : Vec Ideal S1x256 .f32 := V c main_arg3
abbrev b1Arr (c : Dev nD) : Vec Ideal S1x256 .f32 := V c main_v13
abbrev w2Arr (c : Dev nD) : Vec Ideal S256x256 .bf16 := V c main_v15
abbrev b2Arr (c : Dev nD) : Vec Ideal S1x256 .f32 := V c main_v14

theorem hz : (![0, 0] : Fin 2 → Nat) = fun _ => 0 := funext fun a => by fin_cases a <;> rfl

/-- The index maps, decided over the fifty points: the row tiles (positions, labels, result) sit at block (t, 0), the
    whole arrays at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The centre table's block is the whole table. -/
theorem ctrBlk_eq (c : Dev nD) (t : Fin cfg1.N) : ctrBlk V c t = ctrArr V c := by
  obtain ⟨-, -, -, -, e0, e1, -⟩ := idx_facts t
  funext y
  show V c main_v12 (((cfg1.win 2).blk t).view.emb y) = V c main_v12 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 3 + 1 * (y 1).val = (y 1).val; omega

/-- The first layer's weights: the block is the whole row. -/
theorem w1Blk_eq (c : Dev nD) (t : Fin cfg1.N) : w1Blk V c t = w1Arr V c := by
  obtain ⟨-, -, -, -, -, -, e0, e1, -⟩ := idx_facts t
  funext y
  show V c main_arg3 (((cfg1.win 3).blk t).view.emb y) = V c main_arg3 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- The first layer's bias row. -/
theorem b1Blk_eq (c : Dev nD) (t : Fin cfg1.N) : b1Blk V c t = b1Arr V c := by
  obtain ⟨-, -, -, -, -, -, -, -, e0, e1, -⟩ := idx_facts t
  funext y
  show V c main_v13 (((cfg1.win 4).blk t).view.emb y) = V c main_v13 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- The second layer's weights. -/
theorem w2Blk_eq (c : Dev nD) (t : Fin cfg1.N) : w2Blk V c t = w2Arr V c := by
  obtain ⟨-, -, -, -, -, -, -, -, -, -, e0, e1, -⟩ := idx_facts t
  funext y
  show V c main_v15 (((cfg1.win 5).blk t).view.emb y) = V c main_v15 y
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 256 + 1 * (y 1).val = (y 1).val; omega

/-- The second layer's bias row. -/
theorem b2Blk_eq (c : Dev nD) (t : Fin cfg1.N) : b2Blk V c t = b2Arr V c := by
  obtain ⟨-, -, -, -, -, -, -, -, -, -, -, -, e0, e1, -⟩ := idx_facts t
  funext y
  show V c main_v14 (((cfg1.win 6).blk t).view.emb y) = V c main_v14 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 256 + 1 * (y 1).val = (y 1).val; omega

/-- Row n of the positions' block at point t is row 2000 t + n of the positions. -/
theorem posBlk_apply (c : Dev nD) (t : Fin cfg1.N) (n : Fin 2000) (d : Fin 3) (r : Fin 100000) (hr : r.val = t.val * 2000 + n.val) :
    posBlk V c t (ix2 n d) = posArr V c (ix2 r d) := by
  obtain ⟨e0, e1, -⟩ := idx_facts t
  show V c main_arg1 (((cfg1.win 0).blk t).view.emb (ix2 n d)) = V c main_arg1 (ix2 r d)
  refine congrArg _ (funext fun a => Fin.ext ?_)
  match a with
  | ⟨0, _⟩ => show win1_0.index t (0 : Fin 2) * 2000 + 1 * n.val = r.val; omega
  | ⟨1, _⟩ => show win1_0.index t (1 : Fin 2) * 3 + 1 * d.val = d.val; omega

/-- Row n of the labels' block at point t is row 2000 t + n of the label column. -/
theorem labBlk_apply (c : Dev nD) (t : Fin cfg1.N) (n : Fin 2000) (r : Fin 100000) (hr : r.val = t.val * 2000 + n.val) :
    labBlk V c t (ix2 n (0 : Fin 1)) = labArr V c (ix2 r (0 : Fin 1)) := by
  obtain ⟨-, -, e0, e1, -⟩ := idx_facts t
  show V c main_v0 (((cfg1.win 1).blk t).view.emb (ix2 n (0 : Fin 1))) = V c main_v0 (ix2 r (0 : Fin 1))
  refine congrArg _ (funext fun a => Fin.ext ?_)
  match a with
  | ⟨0, _⟩ => show win1_1.index t (0 : Fin 2) * 2000 + 1 * n.val = r.val; omega
  | ⟨1, _⟩ => show win1_1.index t (1 : Fin 2) * 1 + 1 * (0 : Fin 1).val = (0 : Fin 1).val; omega

/-- What point t writes back is block t of the second layer's output of the arrays the region finds. -/
theorem flushed_eq (c : Dev nD) (t : Fin cfg1.N) :
    (dat1 (F := Ideal) V c).flushed 7 t = ((cfg1.win 7).blk t).view.read (Elt Ideal)
      (Cert.Spec.mlpOut 100000 (posArr V c) (labArr V c) (ctrArr V c) (w1Arr V c) (b1Arr V c) (w2Arr V c) (b2Arr V c)) := by
  show (cfg1.win 7).cut (grid1.coords t) ((dat1 V c).after 7 t) = _
  rw [after1_7]
  unfold out1_7
  rw [View.canon_unit_zero hz]
  simp only [View.ld_unit_zero (S := S2000x3) hz, View.ld_unit_zero (S := S2000x1) hz, View.ld_unit_zero (S := S128x3) hz, View.ld_unit_zero (S := S1x256) hz, View.ld_unit_zero (S := S256x256) hz]
  show (cfg1.win 7).cut (grid1.coords t) (k1_pay1 (F := Ideal) (posBlk V c t) (labBlk V c t) (ctrBlk V c t) (w1Blk V c t) (b1Blk V c t) (w2Blk V c t) (b2Blk V c t)) = _
  rw [Region1Pay.pay1_eq (posBlk V c t) (labBlk V c t) (ctrBlk V c t) (w1Blk V c t) (b1Blk V c t) (w2Blk V c t) (b2Blk V c t),
    ctrBlk_eq, w1Blk_eq, b1Blk_eq, w2Blk_eq, b2Blk_eq]
  obtain ⟨-, -, -, -, -, -, -, -, -, -, -, -, -, -, e0, e1⟩ := idx_facts t
  funext j
  obtain ⟨n, q, rfl⟩ : ∃ (n : Fin 2000) (q : Fin 256), j = ix2 n q := ⟨j 0, j 1, eq_ix2 j⟩
  have hr : t.val * 2000 + n.val < 100000 := by have := t.isLt; have := n.isLt; have : cfg1.N = 50 := N_1; omega
  show Cert.Spec.mlpOut 2000 (posBlk V c t) (labBlk V c t) (ctrArr V c) (w1Arr V c) (b1Arr V c) (w2Arr V c) (b2Arr V c) (ix2 n q)
     = Cert.Spec.mlpOut 100000 (posArr V c) (labArr V c) (ctrArr V c) (w1Arr V c) (b1Arr V c) (w2Arr V c) (b2Arr V c) (((cfg1.win 7).blk t).view.emb (ix2 n q))
  have hemb : ((cfg1.win 7).blk t).view.emb (ix2 n q) = (ix2 (⟨t.val * 2000 + n.val, hr⟩ : Fin 100000) q : S100000x256.Idx) := by
    funext a; apply Fin.ext
    match a with
    | ⟨0, _⟩ => show win1_7.index t (0 : Fin 2) * 2000 + 1 * n.val = t.val * 2000 + n.val; omega
    | ⟨1, _⟩ => show win1_7.index t (1 : Fin 2) * 256 + 1 * q.val = q.val; omega
  rw [hemb]
  exact mlpOut_row 2000 100000 (posBlk V c t) (labBlk V c t) (posArr V c) (labArr V c) (ctrArr V c) (w1Arr V c) (b1Arr V c) (w2Arr V c) (b2Arr V c)
    n ⟨t.val * 2000 + n.val, hr⟩ (fun d => posBlk_apply V c t n d _ rfl) (labBlk_apply V c t n _ rfl) q

/-- An index of the result array is in point t's block iff each coordinate is in the block's range on its axis. -/
theorem mem_blk (t : Fin cfg1.N) (i : S100000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v16).slice (win1_7.rect t)).set ↔ _
  rw [View.set_slice_whole, Rect.mem_set_unit]
  exact Iff.rfl

/-- The fifty blocks tile the result: row r lies in the block of point r / 2000. -/
theorem covered (i : S100000x256.Idx) : ∃ t : Fin cfg1.N, (cfg1.win 7).flush t = true ∧ i ∈ ((cfg1.win 7).blk t).view.set := by
  have hi0 : (i 0).val < 100000 := (i 0).isLt
  have hi1 : (i 1).val < 256 := (i 1).isLt
  have hN : cfg1.N = 50 := N_1
  let t : Fin cfg1.N := ⟨(i 0).val / 2000, by omega⟩
  obtain ⟨-, -, -, -, -, -, -, -, -, -, -, -, -, -, e0, e1⟩ := idx_facts t
  have ht : t.val = (i 0).val / 2000 := rfl
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 256 ≤ (i 1).val ∧ (i 1).val < win1_7.index t (1 : Fin 2) * 256 + 256; omega

/-- After the last grid point the region's result array is the second layer's output of the arrays the region finds:
    positions (window 0), label column (1), centre table (2), W1 (3), b1 row (4), W2 (5), b2 row (6). -/
theorem arr_eq (c : Dev nD) :
    ((dat1 (F := Ideal) V c).arrAt 7 cfg1.N : S100000x256.Idx → EReal)
      = Cert.Spec.mlpOut 100000 (V c main_arg1 : S100000x3.Idx → EReal) (V c main_v0 : S100000x1.Idx → BitVec 32) (V c main_v12 : S128x3.Idx → EReal)
          (V c main_arg3 : S1x256.Idx → EReal) (V c main_v13 : S1x256.Idx → EReal) (V c main_v15 : S256x256.Idx → EReal) (V c main_v14 : S1x256.Idx → EReal) :=
  (dat1 (F := Ideal) V c).arrAt_eq_of_cover 7
    (Cert.Spec.mlpOut 100000 (posArr V c) (labArr V c) (ctrArr V c) (w1Arr V c) (b1Arr V c) (w2Arr V c) (b2Arr V c))
    (fun t _ => flushed_eq V c t) covered

end Cert.KernelIdeal.Region1

end
-- ==== Proof.Region0Pay.lean ====
/-
  What one grid point of the first region stores, as a function of the tile it loads: the zero block at the first
  point, and the block it found plus the tile's one-hot product at every point.  The one-hot matrix is the label column
  compared with the lane number; the product contracts the 2000 rows.
-/
import proofs.«412035_j24927990186018_1_alg».proof.Proof.Gen.KernelIdeal.Skeleton
import proofs.«412035_j24927990186018_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.Region0Pay

open Cert.KernelIdeal Cert.KernelIdeal.Gen Idealize.ShloMosaic Idealize.ShloMosaic.ValueIdx

/-- The reset stores zero everywhere. -/
theorem pay1_eq : (k0_pay1 (F := Ideal) : S128x4.Idx → EReal) = fun _ => 0 := by
  unfold k0_pay1
  funext i
  rw [broadcast_apply]
  exact Ideal.ofBits_zero_f32

/-! ### The product's operand indices: the contraction runs over axis 0 of both operands -/

theorem lhs_prod_0 (i : S128x4.Idx) (q : dot_S2000x128_S2000x4_S128x4_0_0_1_1_n_n.contr.Idx) :
    (dot_S2000x128_S2000x4_S128x4_0_0_1_1_n_n.lhsIdx i q 0).val = (q ⟨0, by decide⟩).val :=
  dot_S2000x128_S2000x4_S128x4_0_0_1_1_n_n.lhsIdx_val_of_single rfl i q
theorem lhs_prod_1 (i : S128x4.Idx) (q : dot_S2000x128_S2000x4_S128x4_0_0_1_1_n_n.contr.Idx) :
    (dot_S2000x128_S2000x4_S128x4_0_0_1_1_n_n.lhsIdx i q 1).val = (i 0).val := by
  unfold DotDims.lhsIdx
  rw [dif_neg (show ¬(1 : Fin S2000x128.rank) ∈ dot_S2000x128_S2000x4_S128x4_0_0_1_1_n_n.lhsBatch by decide), dif_pos (show (1 : Fin S2000x128.rank) ∈ dot_S2000x128_S2000x4_S128x4_0_0_1_1_n_n.lhsNonContracting by decide)]
  rfl
theorem rhs_prod_0 (i : S128x4.Idx) (q : dot_S2000x128_S2000x4_S128x4_0_0_1_1_n_n.contr.Idx) :
    (dot_S2000x128_S2000x4_S128x4_0_0_1_1_n_n.rhsIdx i q 0).val = (q ⟨0, by decide⟩).val :=
  dot_S2000x128_S2000x4_S128x4_0_0_1_1_n_n.rhsIdx_val_of_single rfl i q
theorem rhs_prod_1 (i : S128x4.Idx) (q : dot_S2000x128_S2000x4_S128x4_0_0_1_1_n_n.contr.Idx) :
    (dot_S2000x128_S2000x4_S128x4_0_0_1_1_n_n.rhsIdx i q 1).val = (i 1).val := by
  unfold DotDims.rhsIdx
  rw [dif_neg (show ¬(1 : Fin S2000x4.rank) ∈ dot_S2000x128_S2000x4_S128x4_0_0_1_1_n_n.rhsBatch by decide), dif_pos (show (1 : Fin S2000x4.rank) ∈ dot_S2000x128_S2000x4_S128x4_0_0_1_1_n_n.rhsNonContracting by decide)]
  rfl

/-- The product into the zero block, entry (g, e): the sum over the 2000 rows k of left[k, g] · right[k, e]. -/
theorem prod_at (l : FVec Ideal S2000x128 .f32) (r : FVec Ideal S2000x4 .f32) (g : Fin 128) (e : Fin 4) :
    matmul dot_S2000x128_S2000x4_S128x4_0_0_1_1_n_n (some .fp32) l r (constant (F := Ideal) S128x4 .f32 0x00000000#32) (ix2 g e)
      = ∑ k : Fin 2000, l (ix2 k g) * r (ix2 k e) := by
  simp only [matmul]
  rw [Ideal.matmul_constant_zero_apply, ← Equiv.sum_comp (contrEquiv1 dot_S2000x128_S2000x4_S128x4_0_0_1_1_n_n 2000 rfl rfl).symm]
  refine Finset.sum_congr rfl fun k _ => ?_
  have hk := contrEquiv1_symm_val dot_S2000x128_S2000x4_S128x4_0_0_1_1_n_n 2000 rfl rfl k
  have el : dot_S2000x128_S2000x4_S128x4_0_0_1_1_n_n.lhsIdx (ix2 g e) ((contrEquiv1 dot_S2000x128_S2000x4_S128x4_0_0_1_1_n_n 2000 rfl rfl).symm k) = ix2 k g := funext fun a => Fin.ext (by
    match a with
    | ⟨0, _⟩ => exact (lhs_prod_0 _ _).trans hk
    | ⟨1, _⟩ => exact lhs_prod_1 _ _)
  have er : dot_S2000x128_S2000x4_S128x4_0_0_1_1_n_n.rhsIdx (ix2 g e) ((contrEquiv1 dot_S2000x128_S2000x4_S128x4_0_0_1_1_n_n 2000 rfl rfl).symm k) = ix2 k e := funext fun a => Fin.ext (by
    match a with
    | ⟨0, _⟩ => exact (rhs_prod_0 _ _).trans hk
    | ⟨1, _⟩ => exact rhs_prod_1 _ _)
  rw [el, er]

/-- The one-hot matrix at row k and lane g: the weight of the row's label at the graph number g. -/
theorem hot_at (v : IVec S2000x1 32) (k : Fin 2000) (g : Fin 128) :
    (sitofp .f32 (extui 32 (cmpi .eq (broadcastTo S2000x128 v broadcasts_S2000x1_S2000x128) (iota .tc S2000x128 32 [1] iota_S2000x128_d1_w32)) natLt_1_32) : FVec Ideal S2000x128 .f32) (ix2 k g)
      = Cert.Spec.hot (v (ix2 k (0 : Fin 1))) g := by
  rw [sitofp_apply, extui_apply]
  show FloatOps.sitofp .f32 ((IntOp.cmpi .eq (broadcastTo S2000x128 v broadcasts_S2000x1_S2000x128 (ix2 k g)) (iota .tc S2000x128 32 [1] iota_S2000x128_d1_w32 (ix2 k g))).setWidth 32) = _
  rw [broadcastTo_apply v broadcasts_S2000x1_S2000x128 (ix2 k g) (ix2 k (0 : Fin 1)) (fun a => by
        match a with
        | ⟨0, _⟩ => rfl
        | ⟨1, _⟩ => rfl),
      iota_single_apply]
  show (((((IntOp.cmpi .eq (v (ix2 k (0 : Fin 1))) (BitVec.ofNat 32 g.val)).setWidth 32).toInt : ℝ)) : EReal) = _
  unfold Cert.Spec.hot
  by_cases h : v (ix2 k (0 : Fin 1)) = BitVec.ofNat 32 g.val
  · rw [if_pos h, StableHlo.Predicate.cmpi_eq_iff.mpr h]
    have e : ((1#1 : BitVec 1).setWidth 32).toInt = 1 := by decide
    rw [e]; norm_num
  · rw [if_neg h, eq_zero_of_ne_one (fun hc => h (StableHlo.Predicate.cmpi_eq_iff.mp hc))]
    have e : ((0#1 : BitVec 1).setWidth 32).toInt = 0 := by decide
    rw [e]; norm_num

/-- The update stores the block it found plus the tile's one-hot product. -/
theorem pay2_eq (v3 : Vec Ideal S2000x4 .f32) (v5 : Vec Ideal S2000x1 .i32) (v13 : Vec Ideal S128x4 .f32) :
    (k0_pay2 (F := Ideal) v3 v5 v13 : S128x4.Idx → EReal) = fun i => v13 i + Cert.Spec.accArr 2000 v5 v3 i := by
  funext i
  obtain ⟨g, e, rfl⟩ : ∃ (g : Fin 128) (e : Fin 4), i = ix2 g e := ⟨i 0, i 1, eq_ix2 i⟩
  unfold k0_pay2
  simp only [shapeCast_self]
  rw [addf_apply, prod_at]
  unfold Cert.Spec.accArr
  refine congrArg (v13 (ix2 g e) + ·) (Finset.sum_congr rfl fun k _ => ?_)
  rw [hot_at]

end Cert.KernelIdeal.Region0Pay

end
-- ==== Proof.Region0.lean ====
/-
  The first region adds, tile by tile, the one-hot product of the tile's labels with the tile's rows into ONE
  [128, 4] block that every grid point revisits: the point t = 0 starts it from zero, every later point adds to what the
  point before left.  After the last point the block holds the sum over all the nodes.

  In order: what one point stores, as a function of the two tiles it loads and of the block it finds; a tile's entry is
  the arrays' entry at row t·2000 + r; by induction on the point, the block after point n is the sum of the products of
  the tiles 0 … n; the block is the whole result array and only the last point writes it back, so the array ends at the
  sum of all fifty products, which is the sum over the 100000 rows cut into fifty runs of 2000.
-/
import proofs.«412035_j24927990186018_1_alg».proof.Proof.Gen.KernelIdeal.Frame
import proofs.«412035_j24927990186018_1_alg».proof.Proof.Spec
import proofs.«412035_j24927990186018_1_alg».proof.Proof.Region0Pay
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.ShloMosaic.ValueIdx Idealize.SL.Sem

/-! ## What one grid point leaves in the block -/

section Pieces
variable {F : FTy → Type} [FloatOps F]

/-- The offsets (0, 0) are zero on both axes. -/
theorem hz : (![0, 0] : Fin 2 → Nat) = fun _ => 0 := funext fun a => by
  match a with
  | ⟨0, _⟩ => rfl
  | ⟨1, _⟩ => rfl

/-- A later point (t ≥ 1) makes one store that covers the block: the update, computed from the two tiles it loads whole
    and from the block `xo2` it finds, which it also loads whole. -/
theorem out_B (c : Dev nD) (i : grid0.Coords) (a1 : Memref sig .tc .vmem S2000x4 .f32) (h1 : a1.IsWhole)
    (a2 : Memref sig .tc .vmem S2000x1 .i32) (h2 : a2.IsWhole) (a3 : Memref sig .tc .vmem S128x4 .f32) (h3 : a3.IsWhole)
    (hc : ¬cond0_0 i) (x0 : Vec F S2000x4 .f32) (x1 : Vec F S2000x1 .i32) (xo2 : Vec F S128x4 .f32) :
    out0_B_2 c i a1 h1 a2 h2 a3 h3 hc x0 x1 xo2 = k0_pay2 x0 x1 xo2 := by
  unfold out0_B_2
  rw [View.read_writes_eq_canon _ _ _ (cover0_B_2 c i a1 h1 a2 h2 a3 h3 hc x0 x1 xo2)]
  unfold kernelRun0_B
  dsimp only
  sl_unfold_words
  rw [View.canon_unit_zero hz]
  simp only [View.readAt_eq_ld, h1.read_unread, h2.read_unread, h3.read_unread, View.ld_unit_zero (S := S2000x4) hz,
    View.ld_unit_zero (S := S2000x1) hz, View.ld_unit_zero (S := S128x4) hz]

/-- The first point (t = 0) makes two stores, each covering the block: the reset, then the update. The update's third
    operand is the block read back after the reset, so it is the reset's value; the later store is what stays. -/
theorem out_A (c : Dev nD) (i : grid0.Coords) (a1 : Memref sig .tc .vmem S2000x4 .f32) (h1 : a1.IsWhole)
    (a2 : Memref sig .tc .vmem S2000x1 .i32) (h2 : a2.IsWhole) (a3 : Memref sig .tc .vmem S128x4 .f32) (h3 : a3.IsWhole)
    (hc : cond0_0 i) (x0 : Vec F S2000x4 .f32) (x1 : Vec F S2000x1 .i32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S128x4) hz, View.readCov_unit_zero (S := S128x4) _ hz]
  simp only [View.readAt_eq_ld, h1.read_unread, h2.read_unread, View.ld_unit_zero (S := S2000x4) hz,
    View.ld_unit_zero (S := S2000x1) hz]

end Pieces

variable (V : (c : Dev nD) → (b : Ref sig .tc) → Buf (Elt Ideal) ((c : Thread nD τ).loc b))

/-! ## The tiles are runs of rows of the two arrays -/

/-- Point `t`'s tile of the four-column array, and of the label column; the two arrays themselves. -/
abbrev xblk (c : Dev nD) (t : Fin cfg0.N) : Vec Ideal S2000x4 .f32 := iblk0 V c 0 t
abbrev lblk (c : Dev nD) (t : Fin cfg0.N) : Vec Ideal S2000x1 .i32 := iblk0 V c 1 t
abbrev xarr (c : Dev nD) : Vec Ideal S100000x4 .f32 := V c main_v2
abbrev larr (c : Dev nD) : Vec Ideal S100000x1 .i32 := V c main_v0

/-- At point `t` both input windows sit at block (t, 0): decided over the fifty points. -/
theorem idx_rows : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Entry (r, e) of tile `t` of the four-column array is the array's entry (t·2000 + r, e): on each axis a block's
    coordinate sits at block index × block size + the coordinate inside. -/
theorem xblk_apply (c : Dev nD) (t : Fin cfg0.N) (r : Fin 2000) (e : Fin 4) (h : t.val * 2000 + r.val < 100000) :
    xblk V c t (ix2 r e) = xarr V c (ix2 ⟨t.val * 2000 + r.val, h⟩ e) := by
  show ((cfg0.win 0).blk t).view.read (Elt Ideal) (V c main_v2) (ix2 r e) = V c main_v2 (ix2 ⟨t.val * 2000 + r.val, h⟩ e)
  rw [View.read_apply]
  show V c main_v2 (((cfg0.win 0).blk t).view.emb (ix2 r e)) = V c main_v2 (ix2 ⟨t.val * 2000 + r.val, h⟩ e)
  congr 1
  funext a
  apply Fin.ext
  match a with
  | ⟨0, _⟩ => show win0_0.index t 0 * 2000 + 1 * r.val = t.val * 2000 + r.val; rw [(idx_rows t).1.1]; omega
  | ⟨1, _⟩ => show win0_0.index t 1 * 4 + 1 * e.val = e.val; rw [(idx_rows t).1.2]; omega

/-- Entry (r, 0) of tile `t` of the label column is the column's entry (t·2000 + r, 0). -/
theorem lblk_apply (c : Dev nD) (t : Fin cfg0.N) (r : Fin 2000) (h : t.val * 2000 + r.val < 100000) :
    lblk V c t (ix2 r (0 : Fin 1)) = larr V c (ix2 ⟨t.val * 2000 + r.val, h⟩ (0 : Fin 1)) := by
  show ((cfg0.win 1).blk t).view.read (Elt Ideal) (V c main_v0) (ix2 r (0 : Fin 1)) = V c main_v0 (ix2 ⟨t.val * 2000 + r.val, h⟩ (0 : Fin 1))
  rw [View.read_apply]
  show V c main_v0 (((cfg0.win 1).blk t).view.emb (ix2 r (0 : Fin 1))) = V c main_v0 (ix2 ⟨t.val * 2000 + r.val, h⟩ (0 : Fin 1))
  congr 1
  funext a
  apply Fin.ext
  match a with
  | ⟨0, _⟩ => show win0_1.index t 0 * 2000 + 1 * r.val = t.val * 2000 + r.val; rw [(idx_rows t).2.1]; omega
  | ⟨1, _⟩ => show win0_1.index t 1 * 1 + 1 * 0 = 0; rw [(idx_rows t).2.2]

/-! ## The block after each point: the sum of the tiles so far -/

/-- Tile `s`'s one-hot product: the labels of the rows s·2000 … s·2000 + 1999 against the same rows of the four
    columns (zero for s past the grid, a value that is never used). -/
def tile (c : Dev nD) (s : ℕ) : S128x4.Idx → EReal :=
  if h : s < cfg0.N then Cert.Spec.accArr 2000 (lblk V c ⟨s, h⟩) (xblk V c ⟨s, h⟩) else fun _ => 0

theorem tile_of_lt (c : Dev nD) (s : ℕ) (h : s < cfg0.N) :
    tile V c s = Cert.Spec.accArr 2000 (lblk V c ⟨s, h⟩) (xblk V c ⟨s, h⟩) := by
  unfold tile; rw [dif_pos h]

/-- After point `n` the block holds the sum of the products of the tiles 0 … n: point 0 leaves 0 + its own product,
    point n + 1 adds its product to what point n left. By induction on the point. -/
theorem outsAt_eq (c : Dev nD) : ∀ (n : ℕ) (hn : n < cfg0.N),
    (outsAt0 V c n hn : S128x4.Idx → EReal) = fun i => ∑ s ∈ Finset.range (n + 1), tile V c s i
  | 0, hn => by
    have hA : (⟨0, hn⟩ : Fin cfg0.N).val % 50 = 0 := Nat.zero_mod 50
    rw [outsAt0_A V c ⟨0, hn⟩ hA,
      out_A (F := Ideal) c (grid0.coords ⟨0, hn⟩) (ms0_0 ⟨0, hn⟩) (hs0_0 ⟨0, hn⟩) (ms0_1 ⟨0, hn⟩) (hs0_1 ⟨0, hn⟩)
        (ms0_2 ⟨0, hn⟩) (hs0_2 ⟨0, hn⟩) ((hcond0_0 ⟨0, hn⟩).mpr hA) (xblk V c ⟨0, hn⟩) (lblk V c ⟨0, hn⟩),
      Region0Pay.pay2_eq, Region0Pay.pay1_eq]
    funext i
    rw [Finset.sum_range_one, tile_of_lt V c 0 hn]
    exact zero_add _
  | n + 1, hn => by
    have hN : cfg0.N = 50 := N_0
    have hB : ¬(⟨n + 1, hn⟩ : Fin cfg0.N).val % 50 = 0 := by dsimp only; omega
    have e : outsAt0 V c ((⟨n + 1, hn⟩ : Fin cfg0.N).val - 1) (Nat.lt_of_le_of_lt (Nat.sub_le _ _) (⟨n + 1, hn⟩ : Fin cfg0.N).isLt)
        = outsAt0 V c n (Nat.lt_of_succ_lt hn) := rfl
    rw [outsAt0_B V c ⟨n + 1, hn⟩ hB, e,
      out_B (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (fun h => hB ((hcond0_0 ⟨n + 1, hn⟩).mp h)) (xblk V c ⟨n + 1, hn⟩) (lblk V c ⟨n + 1, hn⟩)
        (outsAt0 V c n (Nat.lt_of_succ_lt hn)),
      Region0Pay.pay2_eq, outsAt_eq c n (Nat.lt_of_succ_lt hn)]
    funext i
    rw [Finset.sum_range_succ (fun s => tile V c s i) (n + 1), tile_of_lt V c (n + 1) hn]

/-- A tile's product, read off the two arrays: tile `s` is the rows s·2000 + r, r < 2000. -/
theorem tile_apply (c : Dev nD) (s : Fin 50) (i : S128x4.Idx) :
    tile V c s.val i = ∑ r : Fin 2000,
      Cert.Spec.hot (larr V c (ix2 (⟨s.val * 2000 + r.val, by omega⟩ : Fin 100000) (0 : Fin 1))) (i 0)
        * xarr V c (ix2 (⟨s.val * 2000 + r.val, by omega⟩ : Fin 100000) (i 1)) := by
  have hs : s.val < cfg0.N := by rw [show cfg0.N = 50 from N_0]; exact s.isLt
  rw [tile_of_lt V c s.val hs]
  unfold Cert.Spec.accArr
  refine Finset.sum_congr rfl fun r _ => ?_
  rw [lblk_apply V c ⟨s.val, hs⟩ r (by have := s.isLt; have := r.isLt; dsimp only; omega),
    xblk_apply V c ⟨s.val, hs⟩ r (i 1) (by have := s.isLt; have := r.isLt; dsimp only; omega)]

/-! ## The result array: what the last point leaves -/

theorem lastLt : 49 < cfg0.N := by rw [show cfg0.N = 50 from N_0]; decide

/-- The last grid point. -/
abbrev tlast : Fin cfg0.N := ⟨49, lastLt⟩

/-- What the last point leaves in the block, as contents of the result array (the block IS the array). -/
abbrev total (c : Dev nD) : Buf (Elt Ideal) ((c : Thread nD τ).loc main_v3) := outsAt0 V c 49 lastLt

/-- The one write-back, at the last point, writes it: block (0, 0) of the [128, 4] array, read through zero offsets, is
    the array. -/
theorem flushed_eq (c : Dev nD) (t : Fin cfg0.N) (hf : (cfg0.win 2).flush t = true) :
    (dat0 V c).flushed 2 t = ((cfg0.win 2).blk t).view.read (Elt Ideal) (total V c) := by
  have hN : cfg0.N = 50 := N_0
  have h49 : t.val = 49 := by have := (flush0_2 t).mp hf; have := t.isLt; omega
  obtain rfl : t = tlast := Fin.ext h49
  show (cfg0.win 2).cut (grid0.coords tlast) ((dat0 V c).after 2 tlast) = _
  rw [after0_2]
  have hz' : (fun a => win0_2.index tlast a * main_v3.ty.shape.size a) = fun _ => 0 := funext fun a =>
    (by decide +kernel : ∀ a : Fin 2, win0_2.index tlast a * main_v3.ty.shape.size a = 0) a
  exact (Memref.read_access_unit_zero (Elt Ideal) main_v3 hz' (fun a => by rw [congrFun hz' a]; simp) (total V c)).symm

/-- So the result array ends holding what the last point left: that point's block covers every index of the array. -/
theorem final_arr (c : Dev nD) : (dat0 V c).arrAt 2 cfg0.N = total V c :=
  (dat0 V c).arrAt_eq_of_cover 2 (total V c) (flushed_eq V c) fun i =>
    ⟨tlast, (flush0_2 tlast).mpr rfl, by
      show i ∈ ((View.whole main_v3).slice (win0_2.rect tlast)).set
      rw [View.set_slice_whole, Rect.mem_set_unit]
      intro a
      have h0 : (i 0 : Nat) < 128 := (i 0).isLt
      have h1 : (i 1 : Nat) < 4 := (i 1).isLt
      match a with
      | ⟨0, _⟩ =>
        show win0_2.index tlast 0 * win0_2.size 0 ≤ (i 0 : Nat) ∧ (i 0 : Nat) < win0_2.index tlast 0 * win0_2.size 0 + win0_2.xsize (grid0.coords tlast) 0
        rw [show win0_2.index tlast 0 * win0_2.size 0 = 0 from by decide +kernel, show win0_2.xsize (grid0.coords tlast) 0 = 128 from by decide +kernel]; omega
      | ⟨1, _⟩ =>
        show win0_2.index tlast 1 * win0_2.size 1 ≤ (i 1 : Nat) ∧ (i 1 : Nat) < win0_2.index tlast 1 * win0_2.size 1 + win0_2.xsize (grid0.coords tlast) 1
        rw [show win0_2.index tlast 1 * win0_2.size 1 = 0 from by decide +kernel, show win0_2.xsize (grid0.coords tlast) 1 = 4 from by decide +kernel]; omega⟩

/-- After the last grid point the region's result array is the one-hot sum over all the nodes of the label column
    (window 1's array) against the four-column array (window 0's): the fifty tiles' products added up are the sum over
    the 100000 rows, cut into fifty runs of 2000. -/
theorem arr_eq (c : Dev nD) :
    ((dat0 (F := Ideal) V c).arrAt 2 cfg0.N : S128x4.Idx → EReal)
      = Cert.Spec.accArr 100000 (V c main_v0 : S100000x1.Idx → BitVec 32) (V c main_v2 : S100000x4.Idx → EReal) := by
  rw [final_arr V c]
  show (outsAt0 V c 49 lastLt : S128x4.Idx → EReal) = _
  rw [outsAt_eq V c 49 lastLt]
  funext i
  show ∑ s ∈ Finset.range 50, tile V c s i
    = ∑ n : Fin 100000, Cert.Spec.hot (larr V c (ix2 n (0 : Fin 1))) (i 0) * xarr V c (ix2 n (i 1))
  rw [Cert.Spec.sum_tiles (fun n => Cert.Spec.hot (larr V c (ix2 n (0 : Fin 1))) (i 0) * xarr V c (ix2 n (i 1))),
    ← Fin.sum_univ_eq_sum_range (fun s => tile V c s i) 50]
  exact Finset.sum_congr rfl fun s _ => tile_apply V c s i

end Cert.KernelIdeal.Region0

end
-- ==== Proof.HostGlue.lean ====
/-
  What each region finds in its arrays, as functions of the launch memory: the host operations between the launch and
  the first region make the label column and the four-column array; those between the regions cut the accumulated
  array into sums and counts, form the centres, and lay the two bias vectors out as rows.
-/
import proofs.«412035_j24927990186018_1_alg».proof.Proof.Gen.KernelIdeal.Frame
import proofs.«412035_j24927990186018_1_alg».proof.Proof.Spec
import proofs.«412035_j24927990186018_1_alg».proof.Proof.Region0
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Glue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The launch contents of the arguments the program reads. -/
abbrev pos (c : Dev nD) : S100000x3.Idx → EReal := m ((c.tc : Thread nD τ).loc main_arg1)
abbrev lab (c : Dev nD) : S100000.Idx → BitVec 32 := m ((c.tc : Thread nD τ).loc main_arg2)
abbrev w1 (c : Dev nD) : S1x256.Idx → EReal := m ((c.tc : Thread nD τ).loc main_arg3)
abbrev b1 (c : Dev nD) : S256.Idx → EReal := m ((c.tc : Thread nD τ).loc main_arg4)
abbrev w2 (c : Dev nD) : S256x256.Idx → EReal := m ((c.tc : Thread nD τ).loc main_arg5)
abbrev b2 (c : Dev nD) : S256.Idx → EReal := m ((c.tc : Thread nD τ).loc main_arg6)

/-- A vector cast to a column reads, at (r, 0), the vector at r. -/
theorem shapeCast_a_a1_apply {α : Type} {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 (j 0)) :=
  shapeCast_apply x h _ _ (by
    rw [Shape.rowMajor_val_two, Shape.rowMajor_val_one]
    show (j 0).val = (j 0).val * 1 + (j 1).val
    have h1 : (j 1).val < 1 := (j 1).isLt
    omega)

/-- A stretch of host operations leaves a buffer none of them writes as it was. -/
local macro "not_written " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## At the first region's entry -/

theorem V1_v0 (c : Dev nD) : (V1 m ρ c main_v0 : S100000x1.Idx → BitVec 32) = Cert.Spec.col (lab m c) := by
  show StableHlo.after hostOps0 (W0 m ρ c) (Proc.devRef .tc main_v0) = _
  after_results
  funext i
  exact shapeCast_a_a1_apply _ _ i

theorem V1_v2 (c : Dev nD) : (V1 m ρ c main_v2 : S100000x4.Idx → EReal) = Cert.Spec.posAug (pos m c) := by
  show StableHlo.after hostOps0 (W0 m ρ c) (Proc.devRef .tc main_v2) = _
  after_results
  funext i
  unfold Cert.Spec.posAug
  by_cases h3 : (i 1).val < 3
  · rw [dif_pos h3]
    exact concatenate_pair_apply_left (t := S100000x4) (s₁ := S100000x3) (s₂ := S100000x1) (1 : Fin 2) _ _ _ i rfl
      (ix2 (i 0) (⟨(i 1).val, h3⟩ : Fin 3)) (fun b => match b with | ⟨0, _⟩ => rfl | ⟨1, _⟩ => rfl)
  · rw [dif_neg h3]
    have h4 : (i 1).val < 4 := (i 1).isLt
    refine (concatenate_pair_apply_right (t := S100000x4) (s₁ := S100000x3) (s₂ := S100000x1) (1 : Fin 2) _ _ _ i rfl rfl
      (ix2 (i 0) (0 : Fin 1)) (fun b hb => match b, hb with | ⟨0, _⟩, _ => rfl | ⟨1, _⟩, hb => absurd rfl hb) (by show 0 + 3 = (i 1).val; omega)).trans ?_
    rfl

/-! ## The arguments after the first region: nothing has written them -/

theorem W2_arg4 (c : Dev nD) : W2 m ρ c (Proc.devRef .tc main_arg4) = m ((c : Thread nD τ).loc main_arg4) :=
  (W2_of_ne m ρ c main_arg4 (by decide)).trans (by not_written hostOps0)
theorem W2_arg5 (c : Dev nD) : W2 m ρ c (Proc.devRef .tc main_arg5) = m ((c : Thread nD τ).loc main_arg5) :=
  (W2_of_ne m ρ c main_arg5 (by decide)).trans (by not_written hostOps0)
theorem W2_arg6 (c : Dev nD) : W2 m ρ c (Proc.devRef .tc main_arg6) = m ((c : Thread nD τ).loc main_arg6) :=
  (W2_of_ne m ρ c main_arg6 (by decide)).trans (by not_written hostOps0)

/-! ## At the second region's entry -/

theorem V5_arg1 (c : Dev nD) : (V5 m ρ c main_arg1 : S100000x3.Idx → EReal) = pos m c :=
  ((W6_arr m ρ c 0).trans (((dat1 (V5 m ρ) c).arrAt_in 0 rfl _).trans (A_eq1 (V5 m ρ) c 0))).symm.trans (W6_main_arg1 m ρ c)

theorem V5_arg3 (c : Dev nD) : (V5 m ρ c main_arg3 : S1x256.Idx → EReal) = w1 m c :=
  ((W6_arr m ρ c 3).trans (((dat1 (V5 m ρ) c).arrAt_in 3 rfl _).trans (A_eq1 (V5 m ρ) c 3))).symm.trans (W6_main_arg3 m ρ c)

theorem V5_v0 (c : Dev nD) : (V5 m ρ c main_v0 : S100000x1.Idx → BitVec 32) = Cert.Spec.col (lab m c) := by
  have e5 : W5 m ρ c (Proc.devRef .tc main_v0) = W4 m ρ c (Proc.devRef .tc main_v0) := by not_written hostOps1_2
  have e4 : W4 m ρ c (Proc.devRef .tc main_v0) = W3 m ρ c (Proc.devRef .tc main_v0) := by not_written hostOps1_1
  have e3 : W3 m ρ c (Proc.devRef .tc main_v0) = W2 m ρ c (Proc.devRef .tc main_v0) := by not_written hostOps1
  have e2 : W2 m ρ c (Proc.devRef .tc main_v0) = V1 m ρ c main_v0 :=
    (W2_arr m ρ c 1).trans (((dat0 (V1 m ρ) c).arrAt_in 1 rfl _).trans (A_eq0 (V1 m ρ) c 1))
  exact (e5.trans (e4.trans (e3.trans e2))).trans (V1_v0 m ρ c)

theorem V5_v13 (c : Dev nD) : (V5 m ρ c main_v13 : S1x256.Idx → EReal) = Cert.Spec.row (b1 m c) := by
  show StableHlo.after hostOps1_2 (W4 m ρ c) (Proc.devRef .tc main_v13) = _
  after_results
  rw [W2_arg4 m ρ c]
  funext i
  obtain ⟨u, j, rfl⟩ : ∃ (u : Fin 1) (j : Fin 256), i = ix2 u j := ⟨i 0, i 1, eq_ix2 i⟩
  exact shapeCast_a_1a_apply _ _ u j

theorem V5_v14 (c : Dev nD) : (V5 m ρ c main_v14 : S1x256.Idx → EReal) = Cert.Spec.row (b2 m c) := by
  show StableHlo.after hostOps1_2 (W4 m ρ c) (Proc.devRef .tc main_v14) = _
  after_results
  rw [W2_arg6 m ρ c]
  funext i
  obtain ⟨u, j, rfl⟩ : ∃ (u : Fin 1) (j : Fin 256), i = ix2 u j := ⟨i 0, i 1, eq_ix2 i⟩
  exact shapeCast_a_1a_apply _ _ u j

/-- The change of float format is the identity on the extended reals. -/
theorem V5_v15 (c : Dev nD) : (V5 m ρ c main_v15 : S256x256.Idx → EReal) = w2 m c := by
  show StableHlo.after hostOps1_2 (W4 m ρ c) (Proc.devRef .tc main_v15) = _
  after_results
  rw [W2_arg5 m ρ c]
  rfl

/-- The centre table: the host chain applied to the two cuts of the first region's accumulated array. -/
theorem V5_v12 (c : Dev nD) :
    (V5 m ρ c main_v12 : S128x3.Idx → EReal) = Cert.Spec.centerOf (Cert.Spec.sums (lab m c) (pos m c)) (Cert.Spec.cnts (lab m c)) := by
  show StableHlo.after hostOps1_2 (StableHlo.after hostOps1_1 (StableHlo.after hostOps1 (W2 m ρ c))) (Proc.devRef .tc main_v12) = _
  after_results
  simp only [TRef.ofBuf, TRef.toBuf, cast_eq]
  rw [show W2 m ρ c (Proc.devRef .tc main_v3) = (dat0 (V1 m ρ) c).arrAt 2 cfg0.N from W2_arr m ρ c 2]
  rw [show ((dat0 (F := Ideal) (V1 m ρ) c).arrAt 2 cfg0.N : S128x4.Idx → EReal) = _ from Cert.KernelIdeal.Region0.arr_eq (V1 m ρ) c]
  rw [V1_v0 m ρ c, V1_v2 m ρ c]
  rw [show extractStridedSlice S128x3 ![0, 0] (Cert.Spec.accArr 100000 (Cert.Spec.col (lab m c)) (Cert.Spec.posAug (pos m c))) slices_S128x4_S128x3_0_0
        = Cert.Spec.sums (lab m c) (pos m c) from Cert.Spec.slice_sums (lab m c) (pos m c),
      show extractStridedSlice S128x1 ![0, 3] (Cert.Spec.accArr 100000 (Cert.Spec.col (lab m c)) (Cert.Spec.posAug (pos m c))) slices_S128x4_S128x1_0_3
        = Cert.Spec.cnts (lab m c) from Cert.Spec.slice_cnts (lab m c) (pos m c)]
  rfl

end Cert.KernelIdeal.Glue

end
-- ==== Proof.KernelValue.lean ====
/-
  The kernel program's result array as the specification's function of the launch memory: the second region's array
  after its last write-back, read through what the region found at its entry.
-/
import proofs.«412035_j24927990186018_1_alg».proof.Proof.Gen.KernelIdeal.Frame
import proofs.«412035_j24927990186018_1_alg».proof.Proof.Spec
import proofs.«412035_j24927990186018_1_alg».proof.Proof.Region1
import proofs.«412035_j24927990186018_1_alg».proof.Proof.HostGlue

noncomputable section

namespace Cert.KernelIdeal.Value

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

theorem result_eq (c : Dev nD) :
    (W6 m ρ c (Proc.devRef .tc main_v16) : S100000x256.Idx → EReal)
      = Cert.Spec.result (Glue.pos m c) (Glue.lab m c) (Glue.w1 m c) (Glue.b1 m c) (Glue.w2 m c) (Glue.b2 m c) := by
  rw [show W6 m ρ c (Proc.devRef .tc main_v16) = (dat1 (V5 m ρ) c).arrAt 7 cfg1.N from W6_arr m ρ c 7]
  rw [show ((dat1 (F := Ideal) (V5 m ρ) c).arrAt 7 cfg1.N : S100000x256.Idx → EReal) = _ from Region1.arr_eq (V5 m ρ) c]
  rw [Glue.V5_arg1 m ρ c, Glue.V5_v0 m ρ c, Glue.V5_v12 m ρ c, Glue.V5_arg3 m ρ c, Glue.V5_v13 m ρ c, Glue.V5_v15 m ρ c,
    Glue.V5_v14 m ρ c]
  rfl

end Cert.KernelIdeal.Value

end
-- ==== Proof.RefIndex.lean ====
/-
  The reference's three operations whose reads depend on the labels.  A scatter-add into zeros at row batch[n] adds, at
  entry (g, d), the update entries (n, d) of the nodes n with batch[n] = g (a label outside the table is dropped): the sum
  against the one-hot weights.  The row gather at an in-range label reads the row the label names: the one-hot pick.
-/
import proofs.«412035_j24927990186018_1_alg».proof.Proof.RefRun
import proofs.«412035_j24927990186018_1_alg».proof.Proof.RefRead
import proofs.«412035_j24927990186018_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ReferenceIdeal.RefIndex

open Cert.ReferenceIdeal Cert.ReferenceIdeal.Gen Cert.ReferenceIdeal.ReadP Idealize.ShloMosaic Idealize.ShloMosaic.TcCoe Idealize.ShloMosaic.ValueIdx Idealize.SL.Sem

/-! ## A word read signed -/

/-- A word read signed is the number g (below 2³¹) exactly when it is the word of g. -/
theorem toInt_eq_iff (b : BitVec 32) (g : Nat) (hg : g < 2 ^ 31) : b.toInt = (g : Int) ↔ b = BitVec.ofNat 32 g := by
  constructor
  · intro h
    apply BitVec.eq_of_toInt_eq
    rw [h, StableHlo.Predicate.toInt_ofNat_small g hg]
  · intro h
    rw [h, StableHlo.Predicate.toInt_ofNat_small g hg]

/-! ## The row scatter: one scalar start index per update row, placed on the operand's first axis; the update's second
    axis is the window, laid on the operand's second axis -/

section ScatterRows
variable {N G C : Nat}

/-- On the scattered axis the start is the row's label, read signed. -/
theorem scatter_start0 {w : Nat} (d : ScatterDims ⟨2, ![G, C]⟩ ⟨2, ![N, 1]⟩ ⟨2, ![N, C]⟩)
    (huw : d.updateWindowDims = [1]) (hiw : d.insertedWindowDims = [0]) (hsd : d.scatterDimsToOperandDims = [0])
    (hiv : d.indexVectorDim = 1) (j : (⟨2, ![N, C]⟩ : Shape).Idx) (idx : IVec ⟨2, ![N, 1]⟩ w) :
    d.start j idx 0 = (idx (ix2 (j 0) (0 : Fin 1))).toInt := by
  obtain ⟨uw, iw, sd, iv, wf⟩ := d
  dsimp only at huw hiw hsd hiv
  subst huw hiw hsd hiv
  unfold ScatterDims.start
  rw [dif_pos (show (0 : Fin 2) ∈ [(0 : Fin 2)] from List.mem_singleton.mpr rfl)]
  congr 2
  funext b
  match b with
  | ⟨0, _⟩ => rfl
  | ⟨1, _⟩ => rfl

/-- On the window axis the start is zero. -/
theorem scatter_start1 {w : Nat} (d : ScatterDims ⟨2, ![G, C]⟩ ⟨2, ![N, 1]⟩ ⟨2, ![N, C]⟩)
    (hsd : d.scatterDimsToOperandDims = [0]) (j : (⟨2, ![N, C]⟩ : Shape).Idx) (idx : IVec ⟨2, ![N, 1]⟩ w) :
    d.start j idx 1 = 0 := by
  unfold ScatterDims.start
  rw [dif_neg (by rw [hsd]; show (1 : Fin 2) ∉ [(0 : Fin 2)]; decide)]

/-- The scattered axis is inserted: no window coordinate. -/
theorem scatter_window0 (d : ScatterDims ⟨2, ![G, C]⟩ ⟨2, ![N, 1]⟩ ⟨2, ![N, C]⟩)
    (hiw : d.insertedWindowDims = [0]) (j : (⟨2, ![N, C]⟩ : Shape).Idx) :
    d.window j 0 = 0 := by
  unfold ScatterDims.window
  rw [dif_neg (by rw [ScatterDims.sKept, hiw]; show (0 : Fin 2) ∉ (List.finRange 2).filter (· ∉ [(0 : Fin 2)]); decide)]

/-- The window coordinate on the second axis is the update's column. -/
theorem scatter_window1 (d : ScatterDims ⟨2, ![G, C]⟩ ⟨2, ![N, 1]⟩ ⟨2, ![N, C]⟩)
    (huw : d.updateWindowDims = [1]) (hiw : d.insertedWindowDims = [0]) (j : (⟨2, ![N, C]⟩ : Shape).Idx) :
    d.window j 1 = (j 1).val := by
  obtain ⟨uw, iw, sd, iv, wf⟩ := d
  dsimp only at huw hiw
  subst huw hiw
  unfold ScatterDims.window
  split
  · rfl
  · rename_i h
    exact absurd (show (1 : Fin 2) ∈ (List.finRange 2).filter (· ∉ [(0 : Fin 2)]) by decide) h

/-- Update (n, c') lands at (g, c) exactly when row n's label, read signed, is g and c' = c; a label outside the table
    lands nowhere. -/
theorem scatter_resultIdx_iff {w : Nat} (d : ScatterDims ⟨2, ![G, C]⟩ ⟨2, ![N, 1]⟩ ⟨2, ![N, C]⟩)
    (huw : d.updateWindowDims = [1]) (hiw : d.insertedWindowDims = [0]) (hsd : d.scatterDimsToOperandDims = [0])
    (hiv : d.indexVectorDim = 1) (j : (⟨2, ![N, C]⟩ : Shape).Idx) (idx : IVec ⟨2, ![N, 1]⟩ w) (g : Fin G) (c : Fin C) :
    d.resultIdx? j idx = some (ix2 g c) ↔ (idx (ix2 (j 0) (0 : Fin 1))).toInt = (g.val : Int) ∧ (j 1).val = c.val := by
  have hjc : (j 1).val < C := idx2_lt1 j
  have hg : g.val < G := g.isLt
  have hc : c.val < C := c.isLt
  unfold ScatterDims.resultIdx?
  simp only [Fin.forall_fin_two, scatter_start0 d huw hiw hsd hiv, scatter_start1 d hsd, scatter_window0 d hiw,
    scatter_window1 d huw hiw, Matrix.cons_val_zero, Matrix.cons_val_one]
  split
  · rename_i h
    obtain ⟨⟨h1, h2⟩, h3, h4⟩ := h
    rw [Option.some.injEq]
    constructor
    · intro e
      have e0 : (d.start j idx 0 + ↑(d.window j 0)).toNat = g.val := congrArg (fun f => (f 0).val) e
      have e1 : (d.start j idx 1 + ↑(d.window j 1)).toNat = c.val := congrArg (fun f => (f 1).val) e
      rw [scatter_start0 d huw hiw hsd hiv, scatter_window0 d hiw] at e0
      rw [scatter_start1 d hsd, scatter_window1 d huw hiw] at e1
      constructor <;> omega
    · rintro ⟨e0, e1⟩
      funext a
      match a with
      | ⟨0, _⟩ =>
        apply Fin.ext
        show (d.start j idx 0 + ↑(d.window j 0)).toNat = g.val
        rw [scatter_start0 d huw hiw hsd hiv, scatter_window0 d hiw]
        omega
      | ⟨1, _⟩ =>
        apply Fin.ext
        show (d.start j idx 1 + ↑(d.window j 1)).toNat = c.val
        rw [scatter_start1 d hsd, scatter_window1 d huw hiw]
        omega
  · rename_i h
    constructor
    · intro e
      cases e
    · rintro ⟨e0, e1⟩
      exfalso
      apply h
      refine ⟨⟨by omega, ?_⟩, by omega, ?_⟩
      · show _ < (G : Int)
        omega
      · show _ < (C : Int)
        omega

/-- THE ROW SCATTER-ADD READ AT (g, c): the operand's entry plus the updates' column c over the rows labelled g. -/
theorem scatterAdd_rows (d : ScatterDims ⟨2, ![G, C]⟩ ⟨2, ![N, 1]⟩ ⟨2, ![N, C]⟩)
    (huw : d.updateWindowDims = [1]) (hiw : d.insertedWindowDims = [0]) (hsd : d.scatterDimsToOperandDims = [0])
    (hiv : d.indexVectorDim = 1) (hG : G ≤ 2 ^ 31) (x : (⟨2, ![G, C]⟩ : Shape).Idx → EReal) (idx : IVec ⟨2, ![N, 1]⟩ 32)
    (upd : (⟨2, ![N, C]⟩ : Shape).Idx → EReal) (g : Fin G) (c : Fin C) :
    Ideal.hostScatterAdd d x idx upd (ix2 g c)
      = x (ix2 g c) + ∑ n ∈ Finset.univ.filter (fun n : Fin N => idx (ix2 n (0 : Fin 1)) = BitVec.ofNat 32 g.val), upd (ix2 n c) := by
  have hg : g.val < 2 ^ 31 := lt_of_lt_of_le g.isLt hG
  unfold Ideal.hostScatterAdd
  congr 1
  rw [Finset.sum_filter, sum_idx2, Finset.sum_filter]
  apply Finset.sum_congr rfl
  intro n _
  simp only [scatter_resultIdx_iff d huw hiw hsd hiv, toInt_eq_iff _ _ hg]
  show (∑ b : Fin C, if idx (ix2 n (0 : Fin 1)) = BitVec.ofNat 32 g.val ∧ b.val = c.val then upd (ix2 n b) else 0) = _
  by_cases hn : idx (ix2 n (0 : Fin 1)) = BitVec.ofNat 32 g.val
  · rw [if_pos hn, Finset.sum_eq_single c]
    · rw [if_pos ⟨hn, rfl⟩]
    · intro b _ hb
      rw [if_neg (fun h => hb (Fin.ext h.2))]
    · intro h
      exact absurd (Finset.mem_univ c) h
  · rw [if_neg hn]
    apply Finset.sum_eq_zero
    intro b _
    rw [if_neg (fun h => hn h.1)]

end ScatterRows

/-! ## The row gather: one scalar start index per result row, on the operand's first axis (collapsed); the result's
    second axis is the offset, read on the operand's second axis -/

section GatherRows
variable {N G C : Nat}

/-- On the indexed axis the start is the row's label, read signed and clamped into the table. -/
theorem gather_start0 {w : Nat} (d : GatherDims ⟨2, ![G, C]⟩ ⟨2, ![N, 1]⟩ ⟨2, ![N, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C]) (j : (⟨2, ![N, C]⟩ : Shape).Idx) (idx : IVec ⟨2, ![N, 1]⟩ w) :
    d.start j idx 0 = min (idx (ix2 (j 0) (0 : Fin 1))).toInt.toNat (G - 1) := by
  obtain ⟨od, cs, ob, sb, sm, iv, ss, wf⟩ := d
  dsimp only at hod hcs hob hsb hsm hiv hss
  subst hod hcs hob hsb hsm hiv hss
  unfold GatherDims.start
  rw [dif_pos (show (0 : Fin 2) ∈ [(0 : Fin 2)] from List.mem_singleton.mpr rfl)]
  show min _ (G - 1) = _
  congr 4
  funext b
  match b with
  | ⟨0, _⟩ => rfl
  | ⟨1, _⟩ => rfl

/-- On the offset axis the start is zero. -/
theorem gather_start1 {w : Nat} (d : GatherDims ⟨2, ![G, C]⟩ ⟨2, ![N, 1]⟩ ⟨2, ![N, C]⟩)
    (hsm : d.startIndexMap = [0]) (j : (⟨2, ![N, C]⟩ : Shape).Idx) (idx : IVec ⟨2, ![N, 1]⟩ w) :
    d.start j idx 1 = 0 := by
  unfold GatherDims.start
  rw [dif_neg (by rw [hsm]; show (1 : Fin 2) ∉ [(0 : Fin 2)]; decide)]

/-- The offset coordinate on the second axis is the result's column. -/
theorem gather_off1 (d : GatherDims ⟨2, ![G, C]⟩ ⟨2, ![N, 1]⟩ ⟨2, ![N, C]⟩)
    (hod : d.offsetDims = [1]) (hcs : d.collapsedSliceDims = [0]) (hob : d.operandBatchingDims = [])
    (j : (⟨2, ![N, C]⟩ : Shape).Idx) :
    d.offCoord j 1 = (j 1).val := by
  obtain ⟨od, cs, ob, sb, sm, iv, ss, wf⟩ := d
  dsimp only at hod hcs hob
  subst hod hcs hob
  unfold GatherDims.offCoord
  split
  · rfl
  · rename_i h
    exact absurd (show (1 : Fin 2) ∈ (List.finRange 2).filter (· ∉ [(0 : Fin 2)] ++ []) by decide) h

/-- THE ROW GATHER READ AT (n, c): the table's row at row n's label, read signed and clamped into the table, column c. -/
theorem gather_rows {α : Type} {w : Nat} (d : GatherDims ⟨2, ![G, C]⟩ ⟨2, ![N, 1]⟩ ⟨2, ![N, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C]) (hG : 0 < G)
    (T : (⟨2, ![G, C]⟩ : Shape).Idx → α) (idx : IVec ⟨2, ![N, 1]⟩ w) (n : Fin N) (c : Fin C) :
    Host.gather d T idx (ix2 n c) = T (ix2 ⟨min (idx (ix2 n (0 : Fin 1))).toInt.toNat (G - 1), by omega⟩ c) := by
  have hb : ∀ a : Fin 2, a ∉ d.operandBatchingDims := fun a => by rw [hob]; exact List.not_mem_nil
  unfold Host.gather
  congr 1
  funext a
  match a with
  | ⟨0, _⟩ =>
    apply Fin.ext
    show d.start (ix2 n c) idx 0 + d.batchCoord (ix2 n c) 0 + d.offCoord (ix2 n c) 0 = min _ (G - 1)
    rw [GatherDims.batchCoord_eq_zero _ _ _ (hb 0),
      GatherDims.offCoord_eq_zero _ _ _ (fun h => ((GatherDims.mem_sKept _ _).mp h).1 (by rw [hcs]; exact List.mem_singleton.mpr rfl)),
      gather_start0 d hod hcs hob hsb hsm hiv hss]
    rfl
  | ⟨1, _⟩ =>
    apply Fin.ext
    show d.start (ix2 n c) idx 1 + d.batchCoord (ix2 n c) 1 + d.offCoord (ix2 n c) 1 = c.val
    rw [GatherDims.batchCoord_eq_zero _ _ _ (hb 1), gather_start1 d hsm, gather_off1 d hod hcs hob]
    show 0 + 0 + c.val = c.val
    omega

end GatherRows

/-- The column index a label vector is read at, as a row index of the vector. -/
theorem idx_main_v1_ix2 (n : Fin 100000) : idx_main_v1 (ix2 n (0 : Fin 1)) = ix1 n := by
  funext a
  match a with
  | ⟨0, _⟩ => rfl

/-- The scatter-add of the positions is the per-graph sum of positions. -/
theorem sums_eq (x1 : FVec Ideal S100000x3 .f32) (x2 : IVec S100000 32) :
    (val_main_v2 (F := Ideal) x1 x2 : S128x3.Idx → EReal) = Cert.Spec.sums x2 x1 := by
  funext i
  obtain ⟨g, c, rfl⟩ : ∃ (g : Fin 128) (c : Fin 3), i = ix2 g c := ⟨i 0, i 1, eq_ix2 i⟩
  show Ideal.hostScatterAdd scatter_S128x3_S100000x1_S100000x3_1_0_0_1 (val_main_v0 (F := Ideal))
      (val_main_v1 (F := Ideal) x2) x1 (ix2 g c)
    = ∑ n : Fin 100000, Cert.Spec.hot (x2 (ix1 n)) g * x1 (ix2 n c)
  rw [scatterAdd_rows _ rfl rfl rfl rfl (by norm_num), val_main_v0_apply, val_main_cst_apply]
  show Ideal.ofBits .f32 0x00000000#32 + _ = _
  rw [Ideal.ofBits_zero_f32, zero_add, Cert.Spec.sum_hot_filter (fun n => x2 (ix1 n)) g (fun n => x1 (ix2 n c))]
  simp only [val_main_v1_apply, idx_main_v1_ix2]

/-- The same for the second scatter's label column. -/
theorem idx_main_v5_ix2 (n : Fin 100000) : idx_main_v5 (ix2 n (0 : Fin 1)) = ix1 n := by
  funext a
  match a with
  | ⟨0, _⟩ => rfl

/-- The scatter-add of ones is the per-graph count. -/
theorem cnts_eq (x2 : IVec S100000 32) :
    (val_main_v6 (F := Ideal) x2 : S128x1.Idx → EReal) = Cert.Spec.cnts x2 := by
  funext i
  obtain ⟨g, c, rfl⟩ : ∃ (g : Fin 128) (c : Fin 1), i = ix2 g c := ⟨i 0, i 1, eq_ix2 i⟩
  show Ideal.hostScatterAdd scatter_S128x1_S100000x1_S100000x1_1_0_0_1 (val_main_v4 (F := Ideal))
      (val_main_v5 (F := Ideal) x2) (val_main_v3 (F := Ideal)) (ix2 g c)
    = ∑ n : Fin 100000, Cert.Spec.hot (x2 (ix1 n)) g * Cert.Spec.one32
  rw [scatterAdd_rows _ rfl rfl rfl rfl (by norm_num), val_main_v4_apply, val_main_cst_1_apply]
  show Ideal.ofBits .f32 0x00000000#32 + _ = _
  rw [Ideal.ofBits_zero_f32, zero_add, Cert.Spec.sum_hot_filter (fun n => x2 (ix1 n)) g (fun _ => Cert.Spec.one32)]
  simp only [val_main_v5_apply, idx_main_v5_ix2, val_main_v3_apply, val_main_cst_0_apply]
  rfl

/-- The centre table is the shared host chain of the sums and the counts. -/
theorem center_eq (x1 : FVec Ideal S100000x3 .f32) (x2 : IVec S100000 32) :
    (val_main_v13 (F := Ideal) x1 x2 : S128x3.Idx → EReal) = Cert.Spec.centerOf (Cert.Spec.sums x2 x1) (Cert.Spec.cnts x2) := by
  unfold val_main_v13 val_main_call0_v1 val_main_v8 val_main_v12 val_main_v11 val_main_v10 val_main_v9 val_main_cst_3
    val_main_v7 val_main_cst_2 val_main_call0_v2 val_main_call0_v0 val_main_cst_4 Cert.Spec.centerOf
  rw [sums_eq, cnts_eq]

/-- The same for the wrapped labels' column. -/
theorem idx_main_v19_ix2 (n : Fin 100000) : idx_main_v19 (ix2 n (0 : Fin 1)) = ix1 n := by
  funext a
  match a with
  | ⟨0, _⟩ => rfl

/-- A label below 128 is not negative as a signed word, so the wrap of negative labels leaves it alone. -/
theorem wrap_id (x2 : IVec S100000 32) (n : Fin 100000) (hn : (x2 (ix1 n)).toNat < 128) :
    val_main_v19 (F := Ideal) x2 (ix2 n (0 : Fin 1)) = x2 (ix1 n) := by
  rw [val_main_v19_apply, idx_main_v19_ix2, val_main_v18_apply, val_main_v15_apply, val_main_v14_apply, val_main_c_apply]
  unfold Scalar.select
  rw [if_neg]
  intro h
  have := (StableHlo.Predicate.slt_iff_toNat (a := x2 (ix1 n)) (b := 0#32) (by omega) (by decide)).mp h
  simp at this

/-- At in-range labels the row gather (after jnp's wrap of negative labels, which does nothing then) reads the labelled
    graph's centre: the pick by the one-hot weights. -/
theorem gather_eq (x1 : FVec Ideal S100000x3 .f32) (x2 : IVec S100000 32) (hb : ∀ n : Fin 100000, (x2 (ix1 n)).toNat < 128)
    (n : Fin 100000) (d : Fin 3) :
    val_main_v20 (F := Ideal) x1 x2 (ix2 n d) = Cert.Spec.gath (val_main_v13 (F := Ideal) x1 x2) (x2 (ix1 n)) d := by
  show Host.gather gather_S128x3_S100000x1_S100000x3_1_0_n_n_0_1_13 (val_main_v13 (F := Ideal) x1 x2)
      (val_main_v19 (F := Ideal) x2) (ix2 n d)
    = ∑ g : Fin 128, Cert.Spec.hot (x2 (ix1 n)) g * val_main_v13 (F := Ideal) x1 x2 (ix2 g d)
  rw [gather_rows _ rfl rfl rfl rfl rfl rfl rfl (by norm_num),
    Cert.Spec.sum_hot_single (x2 (ix1 n)) (hb n) (fun g => val_main_v13 (F := Ideal) x1 x2 (ix2 g d))]
  congr 2
  apply Fin.ext
  show min (val_main_v19 (F := Ideal) x2 (ix2 n (0 : Fin 1))).toInt.toNat (128 - 1) = (x2 (ix1 n)).toNat
  have hn := hb n
  rw [wrap_id x2 n hn, StableHlo.Predicate.toInt_eq_toNat_of_lt (by omega)]
  omega

end Cert.ReferenceIdeal.RefIndex

end
-- ==== Proof.RefValue.lean ====
/-
  The reference's result, read one operation at a time, is the specification's function of its arguments when every
  label is a graph number: the two scatter-adds are the sums over the nodes carrying each label, the row gather picks
  the labelled graph's centre, and the rest is the same arithmetic entry by entry.
-/
import proofs.«412035_j24927990186018_1_alg».proof.Proof.RefRun
import proofs.«412035_j24927990186018_1_alg».proof.Proof.RefRead
import proofs.«412035_j24927990186018_1_alg».proof.Proof.Spec
import proofs.«412035_j24927990186018_1_alg».proof.Proof.RefIndex
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx Idealize.SL.Sem

/-- The float word of 1.0 denotes the real number one. -/
theorem one_word : Ideal.ofBits .f32 0x3F800000#32 = (1 : EReal) := IdealRules.sign_bit.ideal_onePat .f32

/-- The squared distance of node n from its graph's centre: the float sum over the three coordinates starts from the
    zero word, and each term is the square of the position minus the gathered centre. -/
theorem sq_eq (x1 : FVec Ideal S100000x3 .f32) (x2 : IVec S100000 32) (hb : ∀ n : Fin 100000, (x2 (ix1 n)).toNat < 128)
    (n : Fin 100000) :
    val_main_call1_v1 (F := Ideal) x1 x2 (ix1 n)
      = ∑ d : Fin 3, (x1 (ix2 n d) - Cert.Spec.gath (val_main_v13 (F := Ideal) x1 x2) (x2 (ix1 n)) d)
          * (x1 (ix2 n d) - Cert.Spec.gath (val_main_v13 (F := Ideal) x1 x2) (x2 (ix1 n)) d) := by
  rw [val_main_call1_v1_apply, val_main_call1_cst_apply, Ideal.ofBits_def, Ideal.ofBits_zero_f32, zero_add]
  refine Finset.sum_congr rfl fun d _ => ?_
  have e : idx_main_call1_v1 (ix1 n) d = ix2 n d := funext fun a => by
    match a with
    | ⟨0, _⟩ => rfl
    | ⟨1, _⟩ => rfl
  rw [e, val_main_call1_v0_apply, val_main_v21_apply, Ideal.mulf_def, Ideal.subf_def, RefIndex.gather_eq x1 x2 hb n d]

/-- The guarded distance of node n: the square root of the squared distance, kept at least the guard word. -/
theorem scal_eq (x1 : FVec Ideal S100000x3 .f32) (x2 : IVec S100000 32) (hb : ∀ n : Fin 100000, (x2 (ix1 n)).toNat < 128)
    (n : Fin 100000) :
    val_main_v24 (F := Ideal) x1 x2 (ix2 n (0 : Fin 1))
      = Cert.Spec.scal 100000 x1 (Cert.Spec.col x2) (val_main_v13 (F := Ideal) x1 x2) n := by
  have e : idx_main_call1_v2 (ix2 n (0 : Fin 1)) = ix1 n := funext fun a => by
    match a with
    | ⟨0, _⟩ => rfl
  rw [val_main_v24_apply, val_main_v22_apply, val_main_call1_v2_apply, e, sq_eq x1 x2 hb n, val_main_v23_apply,
    val_main_cst_6_apply, Ideal.maximumf_def, Ideal.hostUnary_sqrt_def, Ideal.ofBits_def]
  rfl

/-- The hidden layer before its activation: the contraction over the one-element axis is a single product, and the
    bias row is read at the column. -/
theorem hpre_eq (x1 : FVec Ideal S100000x3 .f32) (x2 : IVec S100000 32) (x3 : FVec Ideal S1x256 .f32) (x4 : FVec Ideal S256 .f32)
    (hb : ∀ n : Fin 100000, (x2 (ix1 n)).toNat < 128) (n : Fin 100000) (k : Fin 256) :
    val_main_v28 (F := Ideal) x1 x2 x3 x4 (ix2 n k)
      = Cert.Spec.hpre 100000 x1 (Cert.Spec.col x2) (val_main_v13 (F := Ideal) x1 x2) x3 (Cert.Spec.row x4) n k := by
  have el : lidx_main_v25 (ix2 n k) (0 : Fin 1) = ix2 n (0 : Fin 1) := funext fun a => by
    match a with
    | ⟨0, _⟩ => rfl
    | ⟨1, _⟩ => rfl
  have er : ridx_main_v25 (ix2 n k) (0 : Fin 1) = ix2 (0 : Fin 1) k := funext fun a => by
    match a with
    | ⟨0, _⟩ => rfl
    | ⟨1, _⟩ => rfl
  have eb : idx_main_v26 (idx_main_v27 (ix2 n k)) = ix1 k := funext fun a => by
    match a with
    | ⟨0, _⟩ => rfl
  rw [val_main_v28_apply, val_main_v25_apply, Fin.sum_univ_one, el, er, scal_eq x1 x2 hb n, val_main_v27_apply,
    val_main_v26_apply, eb, Ideal.addf_def]
  rfl

/-- The hidden layer after its activation: x · 1 / (1 + e^(−x)), the logistic function spelt out with the word 1.0. -/
theorem hid_eq (x1 : FVec Ideal S100000x3 .f32) (x2 : IVec S100000 32) (x3 : FVec Ideal S1x256 .f32) (x4 : FVec Ideal S256 .f32)
    (hb : ∀ n : Fin 100000, (x2 (ix1 n)).toNat < 128) (n : Fin 100000) (k : Fin 256) :
    val_main_v29 (F := Ideal) x1 x2 x3 x4 (ix2 n k)
      = Cert.Spec.hid 100000 x1 (Cert.Spec.col x2) (val_main_v13 (F := Ideal) x1 x2) x3 (Cert.Spec.row x4) n k := by
  rw [val_main_v29_apply, val_main_call2_v5_apply, val_main_call2_v4_apply, val_main_call2_cst_0_apply,
    val_main_call2_v3_apply, val_main_call2_v2_apply, val_main_call2_cst_apply, val_main_call2_v1_apply,
    val_main_call2_v0_apply, hpre_eq x1 x2 x3 x4 hb n k, Ideal.mulf_def, Ideal.hostDivf_def, Ideal.addf_def,
    Ideal.hostUnary_exp_def, Ideal.ofBits_def, one_word]
  rfl

/-- The output entry: the contraction over the 256 hidden units, plus the second bias at the column. -/
theorem out_eq (x1 : FVec Ideal S100000x3 .f32) (x2 : IVec S100000 32) (x3 : FVec Ideal S1x256 .f32) (x4 : FVec Ideal S256 .f32)
    (x5 : FVec Ideal S256x256 .f32) (x6 : FVec Ideal S256 .f32) (hb : ∀ n : Fin 100000, (x2 (ix1 n)).toNat < 128)
    (n : Fin 100000) (j : Fin 256) :
    val_main_v33 (F := Ideal) x1 x2 x3 x4 x5 x6 (ix2 n j)
      = Cert.Spec.mlpOut 100000 x1 (Cert.Spec.col x2) (val_main_v13 (F := Ideal) x1 x2) x3 (Cert.Spec.row x4) x5
          (Cert.Spec.row x6) (ix2 n j) := by
  have eb : idx_main_v31 (idx_main_v32 (ix2 n j)) = ix1 j := funext fun a => by
    match a with
    | ⟨0, _⟩ => rfl
  rw [val_main_v33_apply, val_main_v30_apply, val_main_v32_apply, val_main_v31_apply, eb, Ideal.addf_def]
  unfold Cert.Spec.mlpOut
  refine congrArg₂ (· + ·) (Finset.sum_congr rfl fun k _ => ?_) rfl
  have el : lidx_main_v30 (ix2 n j) k = ix2 n k := funext fun a => by
    match a with
    | ⟨0, _⟩ => rfl
    | ⟨1, _⟩ => rfl
  have er : ridx_main_v30 (ix2 n j) k = ix2 k j := funext fun a => by
    match a with
    | ⟨0, _⟩ => rfl
    | ⟨1, _⟩ => rfl
  rw [el, er, hid_eq x1 x2 x3 x4 hb n k]

/-- The reference's result is the specification's function: entry (n, j) is the output entry above, and the centre
    table it reads is the shared chain of the per-graph sums and counts. -/
theorem result_eq (x1 : FVec Ideal S100000x3 .f32) (x2 : IVec S100000 32) (x3 : FVec Ideal S1x256 .f32) (x4 : FVec Ideal S256 .f32)
    (x5 : FVec Ideal S256x256 .f32) (x6 : FVec Ideal S256 .f32) (hb : ∀ n : Fin 100000, (x2 (ix1 n)).toNat < 128) :
    (val_main_v33 (F := Ideal) x1 x2 x3 x4 x5 x6 : S100000x256.Idx → EReal) = Cert.Spec.result x1 x2 x3 x4 x5 x6 := by
  funext i
  obtain ⟨n, j, rfl⟩ : ∃ (n : Fin 100000) (j : Fin 256), i = ix2 n j := ⟨i 0, i 1, eq_ix2 i⟩
  rw [out_eq x1 x2 x3 x4 x5 x6 hb n j, RefIndex.center_eq x1 x2]
  rfl

end Cert.ReferenceIdeal.RefValue

end
-- ==== Proof.PreRange.lean ====
/-
  The precondition's last conjunct says that every label is a graph number: 0 ≤ batch[n] < 128 as signed words,
  that is, the word's value as a natural number is below 128.
-/
import proofs.«412035_j24927990186018_1_alg».proof.Proof.Gen.Pre_finite_inputs
import proofs.«412035_j24927990186018_1_alg».proof.Pre_finite_inputs
import Idealize.ShloMosaic.Lib.ValueIdx
import Idealize.ShloMosaic.Lib.ReduceAll
import Idealize.ShloMosaic.Lib.StableHlo.Predicate

noncomputable section

namespace Cert.Pre_finite_inputs.Range

open Cert.Pre_finite_inputs Idealize.ShloMosaic Idealize.ShloMosaic.ValueIdx

theorem lab_lt [Cert.Pre_finite_inputs.Facts] {F : FTy → Type} [FloatOps F]
    (a0 : FVec F S100000x256 .f32) (a1 : FVec F S100000x3 .f32) (a2 : IVec S100000 32) (a3 : FVec F S1x256 .f32) (a4 : FVec F S256 .f32)
    (a5 : FVec F S256x256 .f32) (a6 : FVec F S256 .f32)
    (h : Cert.Pre_finite_inputs.fn (F := F) a0 a1 a2 a3 a4 a5 a6 = fun _ => 1#1) (n : Fin 100000) :
    (a2 (ix1 n)).toNat < 128 := by
  -- the rank-0 shape has exactly one index
  haveI : Subsingleton S_.Idx := ⟨fun a b => funext fun d => d.elim0⟩
  -- the predicate's single entry is 1
  have h0 := congrFun h ValueIdx.ix0
  dsimp only [fn, fn_part1, fn_part2] at h0
  -- the outermost conjunction: its right half is the "all labels in range" word
  have h1 := (IntOp.andi_eq_one.1 h0).2
  -- a conjunction over all labels that is 1 is 1 at label n
  have h2 := Host.reduce_andi_all _ _ _ _ _ h1 (ix1 n)
  -- at label n the entry is (0 ≤ batch[n]) ∧ (batch[n] < 128), both signed
  obtain ⟨h3, h4⟩ := IntOp.andi_eq_one.1 h2
  have h5 : (0#32 : BitVec 32).toInt ≤ (a2 (ix1 n)).toInt := IntOp.cmpi_sge.1 h3
  have h6 : (a2 (ix1 n)).toInt < (128#32 : BitVec 32).toInt := IntOp.cmpi_slt.1 h4
  rw [show (0#32 : BitVec 32).toInt = 0 from by decide] at h5
  rw [show (128#32 : BitVec 32).toInt = 128 from by decide] at h6
  -- a word whose signed value is nonnegative has that value as its natural-number value
  have hlt := (a2 (ix1 n)).isLt
  rw [BitVec.toInt_eq_toNat_cond] at h5 h6
  split at h5 <;> omega

end Cert.Pre_finite_inputs.Range

end
-- ==== Proof.Claims.lean ====
/-
  The five conjuncts.  The three frames are the runs with their results dropped.  For the equivalence, the kernel
  program's result array and the reference's are both the specification's function of the six arrays that are read,
  the reference's because the precondition makes every label a graph number; the memories agree on the arguments.
-/
import proofs.«412035_j24927990186018_1_alg».proof.Defs
import proofs.«412035_j24927990186018_1_alg».proof.Proof.Gen.Kernel.Frame
import proofs.«412035_j24927990186018_1_alg».proof.Proof.Gen.KernelIdeal.Frame
import proofs.«412035_j24927990186018_1_alg».proof.Proof.Gen.Pre_finite_inputs
import proofs.«412035_j24927990186018_1_alg».proof.Proof.KernelRun
import proofs.«412035_j24927990186018_1_alg».proof.Proof.KernelValue
import proofs.«412035_j24927990186018_1_alg».proof.Proof.RefRun
import proofs.«412035_j24927990186018_1_alg».proof.Proof.RefRead
import proofs.«412035_j24927990186018_1_alg».proof.Proof.RefValue
import proofs.«412035_j24927990186018_1_alg».proof.Proof.PreRange

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the specification's function of the arguments. -/
theorem algebraic : Cert.algebraic_KernelIdeal_ReferenceIdeal := by
  intro m ρ m' ρ' hpre hagree
  refine ⟨fun c => Cert.Spec.result (Cert.KernelIdeal.Glue.pos m c) (Cert.KernelIdeal.Glue.lab m c) (Cert.KernelIdeal.Glue.w1 m c)
      (Cert.KernelIdeal.Glue.b1 m c) (Cert.KernelIdeal.Glue.w2 m c) (Cert.KernelIdeal.Glue.b2 m c), ?_, ?_⟩
  · exact (θ_run Cert.KernelIdeal.defs _ _).mono
      (fun r h c => ⟨(h c).1.trans (Cert.KernelIdeal.Value.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v33_eq, (hagree c).2.1, (hagree c).2.2.1, (hagree c).2.2.2.1, (hagree c).2.2.2.2.1,
      (hagree c).2.2.2.2.2.1, (hagree c).2.2.2.2.2.2]
    exact Cert.ReferenceIdeal.RefValue.result_eq _ _ _ _ _ _
      (fun n => Cert.Pre_finite_inputs.Range.lab_lt _ _ _ _ _ _ _ (hpre c) n)

end Cert.Proof.Claims

end
-- ==== Proof.lean ====
/-
  The proof of `Cert.Claim`: the programs' stated side conditions by the generated facts, then the five conjuncts
  (proof/Proof/Claims.lean).  The claim is stated under the added precondition that every label is a graph number,
  0 ≤ batch[n] < 128: outside it the reference's row gather reads past the centre table.
-/
import proofs.«412035_j24927990186018_1_alg».proof.Defs
import proofs.«412035_j24927990186018_1_alg».proof.Proof.Gen.Kernel
import proofs.«412035_j24927990186018_1_alg».proof.Proof.Gen.KernelIdeal
import proofs.«412035_j24927990186018_1_alg».proof.Proof.Gen.ReferenceIdeal
import proofs.«412035_j24927990186018_1_alg».proof.Proof.Gen.Pre_finite_inputs
import proofs.«412035_j24927990186018_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
